-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x32 : Shape := ⟨2, ![128, 32]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x32 : S_.BroadcastsInDim S128x32 (![] : Fin 0 → Fin S128x32.rank)
  reducesTo_S128x32_S_d0_1 : S128x32.ReducesTo [0, 1] S_

variable [Facts]

def fn {F : FTy → Type} [FloatOps F] (main_arg0 : FVec F S16384x128 .f32) (main_arg1 : FVec F S16384x16384 .f32) (main_arg2 : FVec F S128x32 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  main_v13
-- ==== Kernel.lean ====
abbrev S16384x128 : Shape := ⟨2, ![16384, 128]⟩
abbrev S16384x16384 : Shape := ⟨2, ![16384, 16384]⟩
abbrev S128x32 : Shape := ⟨2, ![128, 32]⟩
abbrev S16384x32 : Shape := ⟨2, ![16384, 32]⟩
abbrev S2048x128 : Shape := ⟨2, ![2048, 128]⟩
abbrev S2048x32 : Shape := ⟨2, ![2048, 32]⟩
abbrev S1024x2048 : Shape := ⟨2, ![1024, 2048]⟩
abbrev S1024x32 : Shape := ⟨2, ![1024, 32]⟩

abbrev nBuf : Space → Nat
  | .hbm => 5
  | .vmem => 12
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x32, .f32⟩
  | .hbm, ⟨3, _⟩ => ⟨S16384x32, .f32⟩
  | .hbm, ⟨4, _⟩ => ⟨S16384x32, .f32⟩
  | .local _ .vmem, ⟨0, _⟩ => ⟨S2048x128, .f32⟩
  | .local _ .vmem, ⟨1, _⟩ => ⟨S2048x128, .f32⟩
  | .local _ .vmem, ⟨2, _⟩ => ⟨S128x32, .f32⟩
  | .local _ .vmem, ⟨3, _⟩ => ⟨S2048x32, .f32⟩
  | .local _ .vmem, ⟨4, _⟩ => ⟨S2048x32, .f32⟩
  | .local _ .vmem, ⟨5, _⟩ => ⟨S1024x2048, .f32⟩
  | .local _ .vmem, ⟨6, _⟩ => ⟨S1024x2048, .f32⟩
  | .local _ .vmem, ⟨7, _⟩ => ⟨S2048x32, .f32⟩
  | .local _ .vmem, ⟨8, _⟩ => ⟨S2048x32, .f32⟩
  | .local _ .vmem, ⟨9, _⟩ => ⟨S1024x32, .f32⟩
  | .local _ .vmem, ⟨10, _⟩ => ⟨S1024x32, .f32⟩
  | .local _ .vmem, ⟨11, _⟩ => ⟨S1024x32, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S2048x32_S2048x32_0_0 : ∀ a, (![0, 0] : Fin 2 → Nat) a + S2048x32.size a ≤ S2048x32.size a
  h_S2048x32 : 0 < S2048x32.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x2048_S1024x2048_0_0 : ∀ a, (![0, 0] : Fin 2 → Nat) a + S1024x2048.size a ≤ S1024x2048.size a
  h_S1024x2048 : 0 < S1024x2048.numel
  shapeCasts_S2048x32_S2048x32 : S2048x32.ShapeCasts S2048x32
  dot_S2048x128_S128x32_S2048x32_1_0_0_1_n_n_wf : DotDims.WF S2048x128 S128x32 S2048x32 [1] [0] [0] [1] [] []
  dot_S1024x2048_S2048x32_S1024x32_1_0_0_1_n_n_wf : DotDims.WF S1024x2048 S2048x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S16384x32.size a
  hwx0_2 : ∀ i : grid0.Coords, EltTy.bits .f32 = 32 ∨ (Rect.block (s := S16384x32) S2048x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x32.size a ≤ S16384x32.size a
  hwx1_1 : ∀ i : grid1.Coords, EltTy.bits .f32 = 32 ∨ (Rect.block (s := S16384x32) S2048x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S16384x32.size a
  hwx1_2 : ∀ i : grid1.Coords, EltTy.bits .f32 = 32 ∨ (Rect.block (s := S16384x32) S1024x32.size (cc1_transform_2 i) (hinb1_2 i)).WholeWords (EltTy.packing .f32)

variable [Facts₀]

def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x32 : Shape := ⟨2, ![128, 32]⟩
abbrev S16384x32 : Shape := ⟨2, ![16384, 32]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x32, .f32⟩
  | .hbm, ⟨3, _⟩ => ⟨S16384x32, .f32⟩
  | .hbm, ⟨4, _⟩ => ⟨S16384x32, .f32⟩
  | .hbm, ⟨5, _⟩ => ⟨S_, .f32⟩
  | .hbm, ⟨6, _⟩ => ⟨S16384x32, .f32⟩
  | .hbm, ⟨7, _⟩ => ⟨S16384x32, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S16384x32 : S_.BroadcastsInDim S16384x32 (![] : Fin 0 → Fin S16384x32.rank)
  dot_S16384x128_S128x32_S16384x32_1_0_0_1_n_n_wf : DotDims.WF S16384x128 S128x32 S16384x32 [1] [0] [0] [1] [] []
  dot_S16384x16384_S16384x32_S16384x32_1_0_0_1_n_n_wf : DotDims.WF S16384x16384 S16384x32 S16384x32 [1] [0] [0] [1] [] []

variable [Facts₀]

def dot_S16384x128_S128x32_S16384x32_1_0_0_1_n_n : DotDims S16384x128 S128x32 S16384x32 where
  lhsContracting := [1]
  rhsContracting := [0]
  lhsNonContracting := [0]
  rhsNonContracting := [1]
  lhsBatch := []
  rhsBatch := []
  wf := dot_S16384x128_S128x32_S16384x32_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf

class Facts : Prop extends Facts₀ where

variable [Facts]
-- ==== Proof.K.Region0.lean ====
/-
  The projection kernel (the first of the program's two tiled kernels) at a grid point, and what it leaves.

  The grid has 8 points; point t is handed rows 2048·t … 2048·t + 2047 of the features (a 2048 × 128 block), the whole
  128 × 32 weight, and an output block of 2048 × 32. The body loads the two input blocks whole, forms their matrix
  product onto a zero accumulator, and stores it over the whole output block; it keeps nothing from point to point.
  So after the body at point t the output's staging buffer holds `projBlock` of the two input blocks, and each input's
  staging buffer still holds its block. Everything is stated at a parameter `V`: the contents of the core's buffers
  when the kernel is entered.
-/
import proofs.«116537_j54331336295083_1_alg».proof.Proof.Gen.Kernel.Launch
import proofs.«116537_j54331336295083_1_alg».proof.Proof.Gen.Kernel.Skeleton
import proofs.«116537_j54331336295083_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the projection kernel is handed -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the point's block of rows whenever the body runs, for any proof data over `V`
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight whenever the body runs: it is fetched once, at the first point,
    and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The whole 2048 × 128 block, the whole 128 × 32 block and the whole 2048 × 32 block, as rectangles. -/
abbrev rFeat : Rect S2048x128 := Rect.unit (s := S2048x128) ![0, 0] S2048x128.size inb_S2048x128_S2048x128_0_0
abbrev rWt : Rect S128x32 := Rect.unit (s := S128x32) ![0, 0] S128x32.size inb_S128x32_S128x32_0_0
abbrev rProj : Rect S2048x32 := Rect.unit (s := S2048x32) ![0, 0] S2048x32.size inb_S2048x32_S2048x32_0_0

/-- What the body leaves in the output block: its one store, of the product of the two loaded blocks. -/
def projBlock (x : Vec F S2048x128 .f32) (w : Vec F S128x32 .f32) : Vec F S2048x32 .f32 :=
  View.canon [⟨rProj, k0_pay1 (View.ld x rFeat) (View.ld w rWt)⟩]

/-- The one store covers the output block. -/
theorem projCover (p0 : Vec F S2048x32 .f32) (y : S2048x32.Idx) :
    ∃ pc ∈ ([⟨rProj, p0⟩] : List (View.Piece (Elt F) S2048x32 .f32)), y ∈ pc.1.set :=
  View.cover_of_tiled [⟨rProj, p0⟩] S2048x32.size (by rfl) y

/-! ## The body's triple -/

set_option maxHeartbeats 1000000 in
/-- On whole staging buffers, the inputs' at contents `x`, `w` and the output's at anything, the body runs to the
    continuation with the inputs' as they were and the output's at `projBlock x w`. -/
theorem projKernel (c : Dev nD) (E : Set ℕ) (i : grid0.Coords) (arg1 : Memref sig .tc .vmem S2048x128 .f32) (harg1 : arg1.IsWhole)
    (arg2 : Memref sig .tc .vmem S128x32 .f32) (harg2 : arg2.IsWhole) (arg3 : Memref sig .tc .vmem S2048x32 .f32) (harg3 : arg3.IsWhole)
    (x : Vec F S2048x128 .f32) (w : Vec F S128x32 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (projBlock x w)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-! ## The proof data -/

/-- The proof data of the projection kernel on core `c`: the arrays as found; after the body at point `t` each input's
    buffer at its block and the output's at `projBlock` of the two; the invariant holds only what the body never
    touches; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => projBlock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = projBlock (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `projKernel` applies; the invariant and the core's
    tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (projKernel c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  The aggregation kernel (the second of the program's two tiled kernels) at a grid point, and what it leaves.

  The grid is 16 × 8, walked row-major: point t has row-block i = t / 8 and stretch k = t % 8. It is handed the
  1024 × 2048 block (i, k) of the adjacency, the 2048 × 32 block k of the projected features, an output block of
  1024 × 32 (block i of the result) and a 1024 × 32 scratch accumulator that lives across points.
    k = 0      : the accumulator is set to zero first;
    every k    : the accumulator becomes  accumulator + adjacency-block · features-block;
    k = 7      : the output block is set to max(accumulator, 0).
  At the points with k ≠ 7 the output block is not touched and is not written back. So the accumulator after point t is
  `accAt1 t`: one update of zero when k = 0, one update of `accAt1 (t - 1)` otherwise; and at k = 7 the output's
  staging buffer holds the clamp of `accAt1 t`. Everything is stated at a parameter `V`: the contents of the core's
  buffers when the kernel is entered.
-/
import proofs.«116537_j54331336295083_1_alg».proof.Proof.Gen.Kernel.Launch
import proofs.«116537_j54331336295083_1_alg».proof.Proof.Gen.Kernel.Skeleton
import proofs.«116537_j54331336295083_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the aggregation kernel is handed -/

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency's staging buffer holds the point's block whenever the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The projected features' staging buffer holds the point's block whenever the body runs. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two tests on the stretch number, over the grid -/

/-- "k = 0", as the body computes it from the grid coordinates. -/
abbrev atFirst (i : grid1.Coords) : Prop := (Scalar.cmpi .ne (Scalar.extui (Scalar.cmpi .eq (BitVec.ofNat 32 (i 1).val) 0#32)) 0#32) = 1#1
theorem atFirst_iff : ∀ t : Fin cfg1.N, atFirst (grid1.coords t) ↔ t.val % 8 = 0 :=
  (by decide +kernel : ∀ t : Fin grid1.N, atFirst (grid1.coords t) ↔ t.val % 8 = 0)
/-- "k = 7", as the body computes it. -/
abbrev atLast (i : grid1.Coords) : Prop := k1_cond2 i = 1#1
theorem atLast_iff : ∀ t : Fin cfg1.N, atLast (grid1.coords t) ↔ t.val % 8 = 7 :=
  (by decide +kernel : ∀ t : Fin grid1.N, atLast (grid1.coords t) ↔ t.val % 8 = 7)

/-- The inputs are handed afresh at every point; the output block is left alone, and not written back, exactly at the
    points with k ≠ 7. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬atLast (grid1.coords t) → cfg1.idle 2 (grid1.coords t) = true := by decide +kernel
theorem noFlush1_2 : ∀ t : Fin cfg1.N, ¬atLast (grid1.coords t) → (cfg1.win 2).flush t = false := by decide +kernel
theorem live1_2 : ∀ t : Fin cfg1.N, atLast (grid1.coords t) → cfg1.idle 2 (grid1.coords t) = false := by decide +kernel

/-! ## The body's triple, case by case -/

/-- The accumulator: a whole buffer of the kernel's own. -/
abbrev scM : Memref sig .tc .vmem S1024x32 .f32 := Memref.whole cc1_scratch0

/-- The offsets of a whole-block access are all zero. -/
theorem zeroOff : (![0, 0] : Fin 2 → ℕ) = fun _ => 0 := by
  funext a; fin_cases a <;> rfl

set_option maxHeartbeats 2000000 in
/-- k = 0 (and not 7): whatever the accumulator held, it ends at one update of zero; the output block is as handed. -/
theorem aggKernel_first (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (hc0 : atFirst i) (hc1 : ¬atLast i)
    (x : Vec F S1024x2048 .f32) (s : Vec F S2048x32 .f32) (xi : Vec F S1024x32 .f32) (K : PUnit → sProp 𝕄) :
    iprop(owns (c : Thread nD τ) arg2 fullShare x ∗ owns (c : Thread nD τ) arg3 fullShare s ∗ owns (c : Thread nD τ) arg4 fullShare xi ∗ (∃ d, owns (c : Thread nD τ) arg5 fullShare d)
        ∗ (iprop(owns (c : Thread nD τ) arg2 fullShare x ∗ owns (c : Thread nD τ) arg3 fullShare s ∗ owns (c : Thread nD τ) arg4 fullShare xi
            ∗ owns (c : Thread nD τ) arg5 fullShare (k1_pay2 x s (k1_pay1 (F := F)))) -∗ K ⟨⟩))
      ⊢ wp frame (wpE (defs₀ (F := F)) Variants.none c none) E (cc1__gc_kernel i arg2 harg2 arg3 harg3 arg4 harg4 arg5 harg5) K := by
  simp only [cc1__gc_kernel_eq_skeleton]; unfold cc1__gc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons.mpr (Or.inl rfl), View.mem_set_unit_zero zeroOff inb_S1024x32_S1024x32_0_0 y⟩)]
  rw [View.canon_cons_unit_zero (S := S1024x32) zeroOff]
  sl_unfold_words
  simp only [View.readAt_eq_ld, View.ld_unit_zero (S := S1024x2048) zeroOff, View.ld_unit_zero (S := S2048x32) zeroOff,
    View.readCov_unit_zero (S := S1024x32) _ zeroOff]

set_option maxHeartbeats 2000000 in
/-- 0 < k < 7: the accumulator, found at `acc`, ends at one update of it; the output block is as handed. -/
theorem aggKernel_mid (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (hc0 : ¬atFirst i) (hc1 : ¬atLast i)
    (x : Vec F S1024x2048 .f32) (s : Vec F S2048x32 .f32) (xi : Vec F S1024x32 .f32) (acc : Vec F S1024x32 .f32) (K : PUnit → sProp 𝕄) :
    iprop(owns (c : Thread nD τ) arg2 fullShare x ∗ owns (c : Thread nD τ) arg3 fullShare s ∗ owns (c : Thread nD τ) arg4 fullShare xi ∗ owns (c : Thread nD τ) arg5 fullShare acc
        ∗ (iprop(owns (c : Thread nD τ) arg2 fullShare x ∗ owns (c : Thread nD τ) arg3 fullShare s ∗ owns (c : Thread nD τ) arg4 fullShare xi
            ∗ owns (c : Thread nD τ) arg5 fullShare (k1_pay2 x s acc)) -∗ K ⟨⟩))
      ⊢ wp frame (wpE (defs₀ (F := F)) Variants.none c none) E (cc1__gc_kernel i arg2 harg2 arg3 harg3 arg4 harg4 arg5 harg5) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons.mpr (Or.inl rfl), View.mem_set_unit_zero zeroOff inb_S1024x32_S1024x32_0_0 y⟩)]
  rw [View.canon_cons_unit_zero (S := S1024x32) zeroOff]
  sl_unfold_words
  simp only [View.readAt_eq_ld, View.ld_unit_zero (S := S1024x2048) zeroOff, View.ld_unit_zero (S := S2048x32) zeroOff,
    View.ld_unit_zero (S := S1024x32) zeroOff]

set_option maxHeartbeats 2000000 in
/-- k = 7 (and not 0): the accumulator, found at `acc`, ends at one update of it, and the output block at its clamp. -/
theorem aggKernel_last (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (hc0 : ¬atFirst i) (hc1 : atLast i)
    (x : Vec F S1024x2048 .f32) (s : Vec F S2048x32 .f32) (acc : Vec F S1024x32 .f32) (K : PUnit → sProp 𝕄) :
    iprop(owns (c : Thread nD τ) arg2 fullShare x ∗ owns (c : Thread nD τ) arg3 fullShare s ∗ (∃ d, owns (c : Thread nD τ) arg4 fullShare d) ∗ owns (c : Thread nD τ) arg5 fullShare acc
        ∗ (iprop(owns (c : Thread nD τ) arg2 fullShare x ∗ owns (c : Thread nD τ) arg3 fullShare s ∗ owns (c : Thread nD τ) arg4 fullShare (k1_pay3 (k1_pay2 x s acc))
            ∗ owns (c : Thread nD τ) arg5 fullShare (k1_pay2 x s acc)) -∗ K ⟨⟩))
      ⊢ wp frame (wpE (defs₀ (F := F)) Variants.none c none) E (cc1__gc_kernel i arg2 harg2 arg3 harg3 arg4 harg4 arg5 harg5) K := by
  simp only [cc1__gc_kernel_eq_skeleton]; unfold cc1__gc_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_cons.mpr (Or.inl rfl), View.mem_set_unit_zero zeroOff inb_S1024x32_S1024x32_0_0 y⟩)]
    rw [View.canon_unit_zero (S := S1024x32) zeroOff]
    sl_unfold_words
    simp only [View.readAt_eq_ld, View.ld_unit_zero (S := S1024x2048) zeroOff, View.ld_unit_zero (S := S2048x32) zeroOff,
      View.ld_unit_zero (S := S1024x32) zeroOff, View.readCov_unit_zero (S := S1024x32) _ zeroOff]
  iexists _; isplitr
  swap; · iexact H3
  ipureintro
  sl_unfold_words
  rw [View.read_writes_eq_canon _ _ _ (fun y => ⟨_, List.mem_cons.mpr (Or.inl rfl), View.mem_set_unit_zero zeroOff inb_S1024x32_S1024x32_0_0 y⟩)]
  rw [View.canon_cons_unit_zero (S := S1024x32) zeroOff]
  simp only [View.readAt_eq_ld, View.ld_unit_zero (S := S1024x2048) zeroOff, View.ld_unit_zero (S := S2048x32) zeroOff,
    View.ld_unit_zero (S := S1024x32) zeroOff]

/-! ## The accumulator, point by point -/

/-- What the accumulator holds after the body at point `n`: one update of zero where k = 0, else one update of what
    the point before left. -/
def accAt1 (c : Dev nD) : (n : ℕ) → n < cfg1.N → Vec F S1024x32 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

theorem accAt1_first (c : Dev nD) (t : Fin cfg1.N) (h0 : t.val % 8 = 0) :
    accAt1 V c t.val t.isLt = k1_pay2 (iblk1 V c 0 t) (iblk1 V c 1 t) (k1_pay1 (F := F)) := by
  obtain ⟨n, hn⟩ := t
  cases n with
  | zero => rfl
  | succ n => exact if_pos h0

theorem accAt1_next (c : Dev nD) (t : Fin cfg1.N) (h0 : ¬t.val % 8 = 0) :
    accAt1 V c t.val t.isLt = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant -/

/-- A buffer of the core's own, whole, at some contents. -/
abbrev heldAny (c : Dev nD) (b : Ref sig .tc) : sProp 𝕄 :=
  iprop(∃ f : Buf (Elt F) ((c : Thread nD τ).loc b), ((c : Thread nD τ).loc b) ↦{fullShare} f)

/-- Before point `n`: at the very start, every buffer the kernel does not stage at anything; afterwards the same with the
    accumulator at what the point before left. (The other five are the projection kernel's staging buffers, unused here.) -/
def PhiS1 (c : Dev nD) : (n : ℕ) → n ≤ cfg1.N → sProp 𝕄
  | 0, _ => Pipeline.ΦA spec1 c
  | n + 1, hn => iprop((heldAny c cc0_stg0_0 ∗ heldAny c cc0_stg0_1 ∗ heldAny c cc0_stg1_0 ∗ heldAny c cc0_stg2_0 ∗ heldAny c cc0_stg2_1
      ∗ owns (c : Thread nD τ) scM fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((heldAny c cc0_stg0_0 ∗ heldAny c cc0_stg0_1 ∗ heldAny c cc0_stg1_0 ∗ heldAny c cc0_stg2_0 ∗ heldAny c cc0_stg2_1
      ∗ owns (c : Thread nD τ) scM fullShare (accAt1 V c n hn)) ∗ (∃ r, prngReg c r)) := rfl

theorem PhiS1_pos (c : Dev nD) (n : ℕ) (h : n ≤ cfg1.N) (hz : n ≠ 0) :
    PhiS1 V c n h = iprop((heldAny c cc0_stg0_0 ∗ heldAny c cc0_stg0_1 ∗ heldAny c cc0_stg1_0 ∗ heldAny c cc0_stg2_0 ∗ heldAny c cc0_stg2_1
      ∗ owns (c : Thread nD τ) scM fullShare (accAt1 V c (n - 1) (by omega))) ∗ (∃ r, prngReg c r)) := by
  cases n with
  | zero => exact absurd rfl hz
  | succ n => rfl

/-- The plain invariant, with the accumulator as a buffer owned at some contents. -/
theorem PhiA1_eq (c : Dev nD) :
    (Pipeline.ΦA spec1 c : sProp 𝕄)
      = iprop((heldAny c cc0_stg0_0 ∗ heldAny c cc0_stg0_1 ∗ heldAny c cc0_stg1_0 ∗ heldAny c cc0_stg2_0 ∗ heldAny c cc0_stg2_1
          ∗ (∃ d, owns (c : Thread nD τ) scM fullShare d)) ∗ (∃ r, prngReg c r)) := by
  unfold Pipeline.ΦA; rw [scopedRest1_eq]; simp only [scM, owns_whole]; try rfl

/-- Whatever the point, the invariant before it holds the accumulator at SOME contents. -/
theorem PhiS1_any (c : Dev nD) (n : ℕ) (h : n ≤ cfg1.N) :
    PhiS1 V c n h ⊢ iprop((heldAny c cc0_stg0_0 ∗ heldAny c cc0_stg0_1 ∗ heldAny c cc0_stg1_0 ∗ heldAny c cc0_stg2_0 ∗ heldAny c cc0_stg2_1
          ∗ (∃ d, owns (c : Thread nD τ) scM fullShare d)) ∗ (∃ r, prngReg c r)) := by
  cases n with
  | zero => rw [PhiS1_zero V c 0 h rfl, PhiA1_eq]
  | succ n =>
    rw [PhiS1_succ]
    iintro ⟨⟨Ha, Hb, Hc, Hd, He, HS⟩, Hg⟩
    isplitl [Ha Hb Hc Hd He HS]
    · isplitl [Ha]; · iexact Ha
      isplitl [Hb]; · iexact Hb
      isplitl [Hc]; · iexact Hc
      isplitl [Hd]; · iexact Hd
      isplitl [He]; · iexact He
      iexists _; iexact HS
    iexact Hg

/-! ## The proof data -/

/-- The proof data of the aggregation kernel on core `c`: the arrays as found; after the body at point `t` each input's
    buffer at its block and the output's at the clamp of the accumulator (which is what it holds where k = 7; elsewhere
    the buffer is left as handed and this entry is not consulted); the invariant carries the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (accAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point, by the stretch number: at k = 0 the accumulator is taken at anything; otherwise at what the
    point before left; it is handed back at this point's contents; the output block is handed back untouched unless k = 7. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [PhiS1_castSucc V c t]
  have hN : t.val < 128 := lt_of_lt_of_eq t.isLt (show cfg1.N = 128 from N_1)
  by_cases h0 : t.val % 8 = 0
  · have hc0 : atFirst (grid1.coords t) := (atFirst_iff t).mpr h0
    have hc1 : ¬atLast (grid1.coords t) := fun h => by have := (atLast_iff t).mp h; omega
    rw [Dat.leavesExact_idle (dat1 V c) 2 t (idle1_2 t hc1) (noFlush1_2 t hc1)]
    rw [accAt1_first V c t h0]
    iintro ⟨HΦ, Ho, ⟨%d0, H0⟩, ⟨%d1, H1⟩, ⟨%d2, H2⟩⟩
    ihave HΦ' := (PhiS1_any V c _ _) $$ HΦ
    icases HΦ' with ⟨⟨Ha, Hb, Hc, Hd, He, HS⟩, Hg⟩
    iapply (aggKernel_first c Set.univ (grid1.coords t) _ _ _ _ _ _ _ _ hc0 hc1 (iblk1 V c 0 t) (iblk1 V c 1 t) _ _)
    isplitl [H0]; · iexact H0
    isplitl [H1]; · iexact H1
    isplitl [H2]; · iexact H2
    isplitl [HS]; · iexact HS
    iintro ⟨H0, H1, H2, HS⟩
    isplitl [Ha Hb Hc Hd He HS Hg]
    · isplitl [Ha Hb Hc Hd He HS]
      · isplitl [Ha]; · iexact Ha
        isplitl [Hb]; · iexact Hb
        isplitl [Hc]; · iexact Hc
        isplitl [Hd]; · iexact Hd
        isplitl [He]; · iexact He
        iexact HS
      iexact Hg
    isplitl [Ho]; · iexact Ho
    isplitl [H0]; · iexact H0
    isplitl [H1]; · iexact H1
    iexists _; iexact H2
  · have hz : t.val ≠ 0 := fun h => h0 (by rw [h])
    have hc0 : ¬atFirst (grid1.coords t) := fun h => h0 ((atFirst_iff t).mp h)
    rw [PhiS1_pos V c _ _ hz, accAt1_next V c t h0]
    by_cases h1 : t.val % 8 = 7
    · have hc1 : atLast (grid1.coords t) := (atLast_iff t).mpr h1
      rw [show (dat1 V c).leavesExact 2 t = owns (c : Thread nD τ) (st1_2 t) fullShare ((dat1 V c).after 2 t) from by
        unfold Dat.leavesExact; rw [live1_2 t hc1], after1_2, accAt1_next V c t h0]
      iintro ⟨⟨⟨Ha, Hb, Hc, Hd, He, HS⟩, Hg⟩, Ho, ⟨%d0, H0⟩, ⟨%d1, H1⟩, ⟨%d2, H2⟩⟩
      iapply (aggKernel_last c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexact H2
    · have hc1 : ¬atLast (grid1.coords t) := fun h => h1 ((atLast_iff t).mp h)
      rw [Dat.leavesExact_idle (dat1 V c) 2 t (idle1_2 t hc1) (noFlush1_2 t hc1)]
      iintro ⟨⟨⟨Ha, Hb, Hc, Hd, He, HS⟩, Hg⟩, Ho, ⟨%d0, H0⟩, ⟨%d1, H1⟩, ⟨%d2, H2⟩⟩
      iapply (aggKernel_mid c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  refine (PhiS1_any V c _ _).trans ?_
  rw [PhiA1_eq]

end Cert.Kernel.Hand

end
-- ==== Proof.K.Run.lean ====
/-
  The whole program's run: the projection kernel, then the aggregation kernel, from the launch to the return.

  Between the two kernels and at the end each core holds every buffer that outlives a kernel at named contents:
  at launch the memory `m`; after the projection kernel the same with the projected features' array at what its
  eight write-backs leave; after the aggregation kernel the same again with the result array at what its sixteen
  write-backs leave. No argument array is ever written: each is read through an input window or bypasses a kernel.
  The run's post says that the final memory holds exactly the last of these, buffer by buffer.
-/
import proofs.«116537_j54331336295083_1_alg».proof.Proof.K.Region0
import proofs.«116537_j54331336295083_1_alg».proof.Proof.K.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- The same read at the TensorCore's references: what the projection kernel finds. -/
abbrev VA : (c : Dev nD) → (b : Ref sig .tc) → Buf (Elt F) ((c : Thread nD τ).loc b) := fun c b => W0 m c b
/-- After the projection kernel: its arrays at what its write-backs leave, every other buffer as before. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the aggregation kernel finds. -/
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)

/-- After the aggregation kernel: its arrays at what its write-backs leave, every other buffer as before. -/
def W2 (c : Dev nD) : Valuation τ sig (Elt F) :=
  Pipeline.withArrays spec1 c (W1 m c) fun w => (dat1 (VB m) c).arrAt w cfg1.N
theorem W2_arr (c : Dev nD) (w : Fin cfg1.W) :
    W2 m c (Proc.devRef .tc (Pipeline.arrRef spec1 w)) = (dat1 (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt F) ((c : Thread nD τ).loc b) := fun c b => W2 m c b
theorem hF1 (c : Dev nD) (w : Fin cfg1.W) : (dat1 (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)

/-! ## What the arguments and the results hold at the end -/

/-- The features are an input window of the projection kernel and bypass the aggregation kernel. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (VA m) c).arrAt_in 0 rfl _).trans (A_eq0 (VA m) c 0))
    _ = m ((c : Thread nD τ).loc main_arg0) := rfl
/-- The weight likewise. -/
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((dat0 (VA m) c).arrAt_in 1 rfl _).trans (A_eq0 (VA m) c 1))
    _ = m ((c : Thread nD τ).loc main_arg2) := rfl
/-- The adjacency bypasses the projection kernel and is an input window of the aggregation kernel. -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 0).trans (((dat1 (VB m) c).arrAt_in 0 rfl _).trans (A_eq1 (VB m) c 0))
    _ = W0 m c (Proc.devRef .tc main_arg1) := W1_of_ne m c main_arg1 (by decide)
    _ = m ((c : Thread nD τ).loc main_arg1) := rfl
/-- The result array ends at what the aggregation kernel's write-backs leave. -/
theorem W2_main_v1 (c : Dev nD) : W2 m c (Proc.devRef .tc main_v1) = (dat1 (VB m) c).arrAt 2 cfg1.N := W2_arr m c 2
/-- What the aggregation kernel finds: the adjacency as launched, the projected features as the projection kernel left them. -/
theorem VB_main_arg1 (c : Dev nD) : VB m c main_arg1 = m ((c : Thread nD τ).loc main_arg1) := W1_of_ne m c main_arg1 (by decide)
theorem VB_main_v0 (c : Dev nD) : VB m c main_v0 = (dat0 (VA m) c).arrAt 2 cfg0.N := W1_arr m c 2

/-! ## The proof data family and the thread state -/

abbrev adm : (p : Fin 2) → (pcfgs (F := F) p).Adm := fun p => (cfgs p).toPCfg_adm
/-- Each kernel's proof data at the contents it is entered from. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the core's generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The kernels as segments -/

set_option backward.isDefEq.respectTransparency.types false in
/-- The projection kernel, entered from the launch contents and left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation kernel, entered from `W1` and left at `W2`. Its invariant begins and ends as the plain one: the
    scratch it carries between points is at anything before the first point and is forgotten after the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hgive : (Pipeline.ΦA spec1 c : sProp 𝕄)
        ⊢ iprop((∃ r, prngReg c r) ∗ BI.emp ∗ Pipeline.scopedRest (Ix := Unit) (Name := ℕ) (U := UR sig nD τ) (Lvl := ℕ) spec1 c) := by
      unfold Pipeline.ΦA
      iintro ⟨Hr, Hp⟩
      isplitl [Hp]; · iexact Hp
      isplitr; · iempintro
      iexact Hr
    exact (hout1 (VB m) c).trans hgive
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    the final memory holds every buffer that outlives a kernel at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- THE RUN with the result named: the arguments as launched, the result array at what the aggregation kernel's
    write-backs leave. -/
theorem run_valued : θ_run defs (onTc (τ := τ) (main (F := F))) ⟨m, fun _ => 0, ρ⟩ (fun r => ∀ c : Dev nD,
      r.2.mem ((c.tc : Thread nD τ).loc main_v1) = (dat1 (VB m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

end Cert.Kernel.Hand

end
-- ==== Proof.KI.Region0.lean ====
/-
  The projection kernel (the first of the program's two tiled kernels) at a grid point, and what it leaves.

  The grid has 8 points; point t is handed rows 2048·t … 2048·t + 2047 of the features (a 2048 × 128 block), the whole
  128 × 32 weight, and an output block of 2048 × 32. The body loads the two input blocks whole, forms their matrix
  product onto a zero accumulator, and stores it over the whole output block; it keeps nothing from point to point.
  So after the body at point t the output's staging buffer holds `projBlock` of the two input blocks, and each input's
  staging buffer still holds its block. Everything is stated at a parameter `V`: the contents of the core's buffers
  when the kernel is entered.
-/
import proofs.«116537_j54331336295083_1_alg».proof.Proof.Gen.KernelIdeal.Launch
import proofs.«116537_j54331336295083_1_alg».proof.Proof.Gen.KernelIdeal.Skeleton
import proofs.«116537_j54331336295083_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the projection kernel is handed -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the point's block of rows whenever the body runs, for any proof data over `V`
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight whenever the body runs: it is fetched once, at the first point,
    and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The whole 2048 × 128 block, the whole 128 × 32 block and the whole 2048 × 32 block, as rectangles. -/
abbrev rFeat : Rect S2048x128 := Rect.unit (s := S2048x128) ![0, 0] S2048x128.size inb_S2048x128_S2048x128_0_0
abbrev rWt : Rect S128x32 := Rect.unit (s := S128x32) ![0, 0] S128x32.size inb_S128x32_S128x32_0_0
abbrev rProj : Rect S2048x32 := Rect.unit (s := S2048x32) ![0, 0] S2048x32.size inb_S2048x32_S2048x32_0_0

/-- What the body leaves in the output block: its one store, of the product of the two loaded blocks. -/
def projBlock (x : Vec F S2048x128 .f32) (w : Vec F S128x32 .f32) : Vec F S2048x32 .f32 :=
  View.canon [⟨rProj, k0_pay1 (View.ld x rFeat) (View.ld w rWt)⟩]

/-- The one store covers the output block. -/
theorem projCover (p0 : Vec F S2048x32 .f32) (y : S2048x32.Idx) :
    ∃ pc ∈ ([⟨rProj, p0⟩] : List (View.Piece (Elt F) S2048x32 .f32)), y ∈ pc.1.set :=
  View.cover_of_tiled [⟨rProj, p0⟩] S2048x32.size (by rfl) y

/-! ## The body's triple -/

set_option maxHeartbeats 1000000 in
/-- On whole staging buffers, the inputs' at contents `x`, `w` and the output's at anything, the body runs to the
    continuation with the inputs' as they were and the output's at `projBlock x w`. -/
theorem projKernel (c : Dev nD) (E : Set ℕ) (i : grid0.Coords) (arg1 : Memref sig .tc .vmem S2048x128 .f32) (harg1 : arg1.IsWhole)
    (arg2 : Memref sig .tc .vmem S128x32 .f32) (harg2 : arg2.IsWhole) (arg3 : Memref sig .tc .vmem S2048x32 .f32) (harg3 : arg3.IsWhole)
    (x : Vec F S2048x128 .f32) (w : Vec F S128x32 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (projBlock x w)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-! ## The proof data -/

/-- The proof data of the projection kernel on core `c`: the arrays as found; after the body at point `t` each input's
    buffer at its block and the output's at `projBlock` of the two; the invariant holds only what the body never
    touches; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => projBlock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = projBlock (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `projKernel` applies; the invariant and the core's
    tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (projKernel c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The aggregation kernel (the second of the program's two tiled kernels) at a grid point, and what it leaves.

  The grid is 16 × 8, walked row-major: point t has row-block i = t / 8 and stretch k = t % 8. It is handed the
  1024 × 2048 block (i, k) of the adjacency, the 2048 × 32 block k of the projected features, an output block of
  1024 × 32 (block i of the result) and a 1024 × 32 scratch accumulator that lives across points.
    k = 0      : the accumulator is set to zero first;
    every k    : the accumulator becomes  accumulator + adjacency-block · features-block;
    k = 7      : the output block is set to max(accumulator, 0).
  At the points with k ≠ 7 the output block is not touched and is not written back. So the accumulator after point t is
  `accAt1 t`: one update of zero when k = 0, one update of `accAt1 (t - 1)` otherwise; and at k = 7 the output's
  staging buffer holds the clamp of `accAt1 t`. Everything is stated at a parameter `V`: the contents of the core's
  buffers when the kernel is entered.
-/
import proofs.«116537_j54331336295083_1_alg».proof.Proof.Gen.KernelIdeal.Launch
import proofs.«116537_j54331336295083_1_alg».proof.Proof.Gen.KernelIdeal.Skeleton
import proofs.«116537_j54331336295083_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the aggregation kernel is handed -/

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency's staging buffer holds the point's block whenever the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The projected features' staging buffer holds the point's block whenever the body runs. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two tests on the stretch number, over the grid -/

/-- "k = 0", as the body computes it from the grid coordinates. -/
abbrev atFirst (i : grid1.Coords) : Prop := (Scalar.cmpi .ne (Scalar.extui (Scalar.cmpi .eq (BitVec.ofNat 32 (i 1).val) 0#32)) 0#32) = 1#1
theorem atFirst_iff : ∀ t : Fin cfg1.N, atFirst (grid1.coords t) ↔ t.val % 8 = 0 :=
  (by decide +kernel : ∀ t : Fin grid1.N, atFirst (grid1.coords t) ↔ t.val % 8 = 0)
/-- "k = 7", as the body computes it. -/
abbrev atLast (i : grid1.Coords) : Prop := k1_cond2 i = 1#1
theorem atLast_iff : ∀ t : Fin cfg1.N, atLast (grid1.coords t) ↔ t.val % 8 = 7 :=
  (by decide +kernel : ∀ t : Fin grid1.N, atLast (grid1.coords t) ↔ t.val % 8 = 7)

/-- The inputs are handed afresh at every point; the output block is left alone, and not written back, exactly at the
    points with k ≠ 7. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬atLast (grid1.coords t) → cfg1.idle 2 (grid1.coords t) = true := by decide +kernel
theorem noFlush1_2 : ∀ t : Fin cfg1.N, ¬atLast (grid1.coords t) → (cfg1.win 2).flush t = false := by decide +kernel
theorem live1_2 : ∀ t : Fin cfg1.N, atLast (grid1.coords t) → cfg1.idle 2 (grid1.coords t) = false := by decide +kernel

/-! ## The body's triple, case by case -/

/-- The accumulator: a whole buffer of the kernel's own. -/
abbrev scM : Memref sig .tc .vmem S1024x32 .f32 := Memref.whole cc1_scratch0

/-- The offsets of a whole-block access are all zero. -/
theorem zeroOff : (![0, 0] : Fin 2 → ℕ) = fun _ => 0 := by
  funext a; fin_cases a <;> rfl

set_option maxHeartbeats 2000000 in
/-- k = 0 (and not 7): whatever the accumulator held, it ends at one update of zero; the output block is as handed. -/
theorem aggKernel_first (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (hc0 : atFirst i) (hc1 : ¬atLast i)
    (x : Vec F S1024x2048 .f32) (s : Vec F S2048x32 .f32) (xi : Vec F S1024x32 .f32) (K : PUnit → sProp 𝕄) :
    iprop(owns (c : Thread nD τ) arg2 fullShare x ∗ owns (c : Thread nD τ) arg3 fullShare s ∗ owns (c : Thread nD τ) arg4 fullShare xi ∗ (∃ d, owns (c : Thread nD τ) arg5 fullShare d)
        ∗ (iprop(owns (c : Thread nD τ) arg2 fullShare x ∗ owns (c : Thread nD τ) arg3 fullShare s ∗ owns (c : Thread nD τ) arg4 fullShare xi
            ∗ owns (c : Thread nD τ) arg5 fullShare (k1_pay2 x s (k1_pay1 (F := F)))) -∗ K ⟨⟩))
      ⊢ wp frame (wpE (defs₀ (F := F)) Variants.none c none) E (cc1__gc_kernel i arg2 harg2 arg3 harg3 arg4 harg4 arg5 harg5) K := by
  simp only [cc1__gc_kernel_eq_skeleton]; unfold cc1__gc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons.mpr (Or.inl rfl), View.mem_set_unit_zero zeroOff inb_S1024x32_S1024x32_0_0 y⟩)]
  rw [View.canon_cons_unit_zero (S := S1024x32) zeroOff]
  sl_unfold_words
  simp only [View.readAt_eq_ld, View.ld_unit_zero (S := S1024x2048) zeroOff, View.ld_unit_zero (S := S2048x32) zeroOff,
    View.readCov_unit_zero (S := S1024x32) _ zeroOff]

set_option maxHeartbeats 2000000 in
/-- 0 < k < 7: the accumulator, found at `acc`, ends at one update of it; the output block is as handed. -/
theorem aggKernel_mid (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (hc0 : ¬atFirst i) (hc1 : ¬atLast i)
    (x : Vec F S1024x2048 .f32) (s : Vec F S2048x32 .f32) (xi : Vec F S1024x32 .f32) (acc : Vec F S1024x32 .f32) (K : PUnit → sProp 𝕄) :
    iprop(owns (c : Thread nD τ) arg2 fullShare x ∗ owns (c : Thread nD τ) arg3 fullShare s ∗ owns (c : Thread nD τ) arg4 fullShare xi ∗ owns (c : Thread nD τ) arg5 fullShare acc
        ∗ (iprop(owns (c : Thread nD τ) arg2 fullShare x ∗ owns (c : Thread nD τ) arg3 fullShare s ∗ owns (c : Thread nD τ) arg4 fullShare xi
            ∗ owns (c : Thread nD τ) arg5 fullShare (k1_pay2 x s acc)) -∗ K ⟨⟩))
      ⊢ wp frame (wpE (defs₀ (F := F)) Variants.none c none) E (cc1__gc_kernel i arg2 harg2 arg3 harg3 arg4 harg4 arg5 harg5) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons.mpr (Or.inl rfl), View.mem_set_unit_zero zeroOff inb_S1024x32_S1024x32_0_0 y⟩)]
  rw [View.canon_cons_unit_zero (S := S1024x32) zeroOff]
  sl_unfold_words
  simp only [View.readAt_eq_ld, View.ld_unit_zero (S := S1024x2048) zeroOff, View.ld_unit_zero (S := S2048x32) zeroOff,
    View.ld_unit_zero (S := S1024x32) zeroOff]

set_option maxHeartbeats 2000000 in
/-- k = 7 (and not 0): the accumulator, found at `acc`, ends at one update of it, and the output block at its clamp. -/
theorem aggKernel_last (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (hc0 : ¬atFirst i) (hc1 : atLast i)
    (x : Vec F S1024x2048 .f32) (s : Vec F S2048x32 .f32) (acc : Vec F S1024x32 .f32) (K : PUnit → sProp 𝕄) :
    iprop(owns (c : Thread nD τ) arg2 fullShare x ∗ owns (c : Thread nD τ) arg3 fullShare s ∗ (∃ d, owns (c : Thread nD τ) arg4 fullShare d) ∗ owns (c : Thread nD τ) arg5 fullShare acc
        ∗ (iprop(owns (c : Thread nD τ) arg2 fullShare x ∗ owns (c : Thread nD τ) arg3 fullShare s ∗ owns (c : Thread nD τ) arg4 fullShare (k1_pay3 (k1_pay2 x s acc))
            ∗ owns (c : Thread nD τ) arg5 fullShare (k1_pay2 x s acc)) -∗ K ⟨⟩))
      ⊢ wp frame (wpE (defs₀ (F := F)) Variants.none c none) E (cc1__gc_kernel i arg2 harg2 arg3 harg3 arg4 harg4 arg5 harg5) K := by
  simp only [cc1__gc_kernel_eq_skeleton]; unfold cc1__gc_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_cons.mpr (Or.inl rfl), View.mem_set_unit_zero zeroOff inb_S1024x32_S1024x32_0_0 y⟩)]
    rw [View.canon_unit_zero (S := S1024x32) zeroOff]
    sl_unfold_words
    simp only [View.readAt_eq_ld, View.ld_unit_zero (S := S1024x2048) zeroOff, View.ld_unit_zero (S := S2048x32) zeroOff,
      View.ld_unit_zero (S := S1024x32) zeroOff, View.readCov_unit_zero (S := S1024x32) _ zeroOff]
  iexists _; isplitr
  swap; · iexact H3
  ipureintro
  sl_unfold_words
  rw [View.read_writes_eq_canon _ _ _ (fun y => ⟨_, List.mem_cons.mpr (Or.inl rfl), View.mem_set_unit_zero zeroOff inb_S1024x32_S1024x32_0_0 y⟩)]
  rw [View.canon_cons_unit_zero (S := S1024x32) zeroOff]
  simp only [View.readAt_eq_ld, View.ld_unit_zero (S := S1024x2048) zeroOff, View.ld_unit_zero (S := S2048x32) zeroOff,
    View.ld_unit_zero (S := S1024x32) zeroOff]

/-! ## The accumulator, point by point -/

/-- What the accumulator holds after the body at point `n`: one update of zero where k = 0, else one update of what
    the point before left. -/
def accAt1 (c : Dev nD) : (n : ℕ) → n < cfg1.N → Vec F S1024x32 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

theorem accAt1_first (c : Dev nD) (t : Fin cfg1.N) (h0 : t.val % 8 = 0) :
    accAt1 V c t.val t.isLt = k1_pay2 (iblk1 V c 0 t) (iblk1 V c 1 t) (k1_pay1 (F := F)) := by
  obtain ⟨n, hn⟩ := t
  cases n with
  | zero => rfl
  | succ n => exact if_pos h0

theorem accAt1_next (c : Dev nD) (t : Fin cfg1.N) (h0 : ¬t.val % 8 = 0) :
    accAt1 V c t.val t.isLt = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant -/

/-- A buffer of the core's own, whole, at some contents. -/
abbrev heldAny (c : Dev nD) (b : Ref sig .tc) : sProp 𝕄 :=
  iprop(∃ f : Buf (Elt F) ((c : Thread nD τ).loc b), ((c : Thread nD τ).loc b) ↦{fullShare} f)

/-- Before point `n`: at the very start, every buffer the kernel does not stage at anything; afterwards the same with the
    accumulator at what the point before left. (The other five are the projection kernel's staging buffers, unused here.) -/
def PhiS1 (c : Dev nD) : (n : ℕ) → n ≤ cfg1.N → sProp 𝕄
  | 0, _ => Pipeline.ΦA spec1 c
  | n + 1, hn => iprop((heldAny c cc0_stg0_0 ∗ heldAny c cc0_stg0_1 ∗ heldAny c cc0_stg1_0 ∗ heldAny c cc0_stg2_0 ∗ heldAny c cc0_stg2_1
      ∗ owns (c : Thread nD τ) scM fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((heldAny c cc0_stg0_0 ∗ heldAny c cc0_stg0_1 ∗ heldAny c cc0_stg1_0 ∗ heldAny c cc0_stg2_0 ∗ heldAny c cc0_stg2_1
      ∗ owns (c : Thread nD τ) scM fullShare (accAt1 V c n hn)) ∗ (∃ r, prngReg c r)) := rfl

theorem PhiS1_pos (c : Dev nD) (n : ℕ) (h : n ≤ cfg1.N) (hz : n ≠ 0) :
    PhiS1 V c n h = iprop((heldAny c cc0_stg0_0 ∗ heldAny c cc0_stg0_1 ∗ heldAny c cc0_stg1_0 ∗ heldAny c cc0_stg2_0 ∗ heldAny c cc0_stg2_1
      ∗ owns (c : Thread nD τ) scM fullShare (accAt1 V c (n - 1) (by omega))) ∗ (∃ r, prngReg c r)) := by
  cases n with
  | zero => exact absurd rfl hz
  | succ n => rfl

/-- The plain invariant, with the accumulator as a buffer owned at some contents. -/
theorem PhiA1_eq (c : Dev nD) :
    (Pipeline.ΦA spec1 c : sProp 𝕄)
      = iprop((heldAny c cc0_stg0_0 ∗ heldAny c cc0_stg0_1 ∗ heldAny c cc0_stg1_0 ∗ heldAny c cc0_stg2_0 ∗ heldAny c cc0_stg2_1
          ∗ (∃ d, owns (c : Thread nD τ) scM fullShare d)) ∗ (∃ r, prngReg c r)) := by
  unfold Pipeline.ΦA; rw [scopedRest1_eq]; simp only [scM, owns_whole]; try rfl

/-- Whatever the point, the invariant before it holds the accumulator at SOME contents. -/
theorem PhiS1_any (c : Dev nD) (n : ℕ) (h : n ≤ cfg1.N) :
    PhiS1 V c n h ⊢ iprop((heldAny c cc0_stg0_0 ∗ heldAny c cc0_stg0_1 ∗ heldAny c cc0_stg1_0 ∗ heldAny c cc0_stg2_0 ∗ heldAny c cc0_stg2_1
          ∗ (∃ d, owns (c : Thread nD τ) scM fullShare d)) ∗ (∃ r, prngReg c r)) := by
  cases n with
  | zero => rw [PhiS1_zero V c 0 h rfl, PhiA1_eq]
  | succ n =>
    rw [PhiS1_succ]
    iintro ⟨⟨Ha, Hb, Hc, Hd, He, HS⟩, Hg⟩
    isplitl [Ha Hb Hc Hd He HS]
    · isplitl [Ha]; · iexact Ha
      isplitl [Hb]; · iexact Hb
      isplitl [Hc]; · iexact Hc
      isplitl [Hd]; · iexact Hd
      isplitl [He]; · iexact He
      iexists _; iexact HS
    iexact Hg

/-! ## The proof data -/

/-- The proof data of the aggregation kernel on core `c`: the arrays as found; after the body at point `t` each input's
    buffer at its block and the output's at the clamp of the accumulator (which is what it holds where k = 7; elsewhere
    the buffer is left as handed and this entry is not consulted); the invariant carries the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (accAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point, by the stretch number: at k = 0 the accumulator is taken at anything; otherwise at what the
    point before left; it is handed back at this point's contents; the output block is handed back untouched unless k = 7. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [PhiS1_castSucc V c t]
  have hN : t.val < 128 := lt_of_lt_of_eq t.isLt (show cfg1.N = 128 from N_1)
  by_cases h0 : t.val % 8 = 0
  · have hc0 : atFirst (grid1.coords t) := (atFirst_iff t).mpr h0
    have hc1 : ¬atLast (grid1.coords t) := fun h => by have := (atLast_iff t).mp h; omega
    rw [Dat.leavesExact_idle (dat1 V c) 2 t (idle1_2 t hc1) (noFlush1_2 t hc1)]
    rw [accAt1_first V c t h0]
    iintro ⟨HΦ, Ho, ⟨%d0, H0⟩, ⟨%d1, H1⟩, ⟨%d2, H2⟩⟩
    ihave HΦ' := (PhiS1_any V c _ _) $$ HΦ
    icases HΦ' with ⟨⟨Ha, Hb, Hc, Hd, He, HS⟩, Hg⟩
    iapply (aggKernel_first c Set.univ (grid1.coords t) _ _ _ _ _ _ _ _ hc0 hc1 (iblk1 V c 0 t) (iblk1 V c 1 t) _ _)
    isplitl [H0]; · iexact H0
    isplitl [H1]; · iexact H1
    isplitl [H2]; · iexact H2
    isplitl [HS]; · iexact HS
    iintro ⟨H0, H1, H2, HS⟩
    isplitl [Ha Hb Hc Hd He HS Hg]
    · isplitl [Ha Hb Hc Hd He HS]
      · isplitl [Ha]; · iexact Ha
        isplitl [Hb]; · iexact Hb
        isplitl [Hc]; · iexact Hc
        isplitl [Hd]; · iexact Hd
        isplitl [He]; · iexact He
        iexact HS
      iexact Hg
    isplitl [Ho]; · iexact Ho
    isplitl [H0]; · iexact H0
    isplitl [H1]; · iexact H1
    iexists _; iexact H2
  · have hz : t.val ≠ 0 := fun h => h0 (by rw [h])
    have hc0 : ¬atFirst (grid1.coords t) := fun h => h0 ((atFirst_iff t).mp h)
    rw [PhiS1_pos V c _ _ hz, accAt1_next V c t h0]
    by_cases h1 : t.val % 8 = 7
    · have hc1 : atLast (grid1.coords t) := (atLast_iff t).mpr h1
      rw [show (dat1 V c).leavesExact 2 t = owns (c : Thread nD τ) (st1_2 t) fullShare ((dat1 V c).after 2 t) from by
        unfold Dat.leavesExact; rw [live1_2 t hc1], after1_2, accAt1_next V c t h0]
      iintro ⟨⟨⟨Ha, Hb, Hc, Hd, He, HS⟩, Hg⟩, Ho, ⟨%d0, H0⟩, ⟨%d1, H1⟩, ⟨%d2, H2⟩⟩
      iapply (aggKernel_last c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexact H2
    · have hc1 : ¬atLast (grid1.coords t) := fun h => h1 ((atLast_iff t).mp h)
      rw [Dat.leavesExact_idle (dat1 V c) 2 t (idle1_2 t hc1) (noFlush1_2 t hc1)]
      iintro ⟨⟨⟨Ha, Hb, Hc, Hd, He, HS⟩, Hg⟩, Ho, ⟨%d0, H0⟩, ⟨%d1, H1⟩, ⟨%d2, H2⟩⟩
      iapply (aggKernel_mid c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  refine (PhiS1_any V c _ _).trans ?_
  rw [PhiA1_eq]

end Cert.KernelIdeal.Hand

end
-- ==== Proof.KI.Run.lean ====
/-
  The whole program's run: the projection kernel, then the aggregation kernel, from the launch to the return.

  Between the two kernels and at the end each core holds every buffer that outlives a kernel at named contents:
  at launch the memory `m`; after the projection kernel the same with the projected features' array at what its
  eight write-backs leave; after the aggregation kernel the same again with the result array at what its sixteen
  write-backs leave. No argument array is ever written: each is read through an input window or bypasses a kernel.
  The run's post says that the final memory holds exactly the last of these, buffer by buffer.
-/
import proofs.«116537_j54331336295083_1_alg».proof.Proof.KI.Region0
import proofs.«116537_j54331336295083_1_alg».proof.Proof.KI.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- The same read at the TensorCore's references: what the projection kernel finds. -/
abbrev VA : (c : Dev nD) → (b : Ref sig .tc) → Buf (Elt F) ((c : Thread nD τ).loc b) := fun c b => W0 m c b
/-- After the projection kernel: its arrays at what its write-backs leave, every other buffer as before. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the aggregation kernel finds. -/
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)

/-- After the aggregation kernel: its arrays at what its write-backs leave, every other buffer as before. -/
def W2 (c : Dev nD) : Valuation τ sig (Elt F) :=
  Pipeline.withArrays spec1 c (W1 m c) fun w => (dat1 (VB m) c).arrAt w cfg1.N
theorem W2_arr (c : Dev nD) (w : Fin cfg1.W) :
    W2 m c (Proc.devRef .tc (Pipeline.arrRef spec1 w)) = (dat1 (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt F) ((c : Thread nD τ).loc b) := fun c b => W2 m c b
theorem hF1 (c : Dev nD) (w : Fin cfg1.W) : (dat1 (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)

/-! ## What the arguments and the results hold at the end -/

/-- The features are an input window of the projection kernel and bypass the aggregation kernel. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (VA m) c).arrAt_in 0 rfl _).trans (A_eq0 (VA m) c 0))
    _ = m ((c : Thread nD τ).loc main_arg0) := rfl
/-- The weight likewise. -/
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((dat0 (VA m) c).arrAt_in 1 rfl _).trans (A_eq0 (VA m) c 1))
    _ = m ((c : Thread nD τ).loc main_arg2) := rfl
/-- The adjacency bypasses the projection kernel and is an input window of the aggregation kernel. -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 0).trans (((dat1 (VB m) c).arrAt_in 0 rfl _).trans (A_eq1 (VB m) c 0))
    _ = W0 m c (Proc.devRef .tc main_arg1) := W1_of_ne m c main_arg1 (by decide)
    _ = m ((c : Thread nD τ).loc main_arg1) := rfl
/-- The result array ends at what the aggregation kernel's write-backs leave. -/
theorem W2_main_v1 (c : Dev nD) : W2 m c (Proc.devRef .tc main_v1) = (dat1 (VB m) c).arrAt 2 cfg1.N := W2_arr m c 2
/-- What the aggregation kernel finds: the adjacency as launched, the projected features as the projection kernel left them. -/
theorem VB_main_arg1 (c : Dev nD) : VB m c main_arg1 = m ((c : Thread nD τ).loc main_arg1) := W1_of_ne m c main_arg1 (by decide)
theorem VB_main_v0 (c : Dev nD) : VB m c main_v0 = (dat0 (VA m) c).arrAt 2 cfg0.N := W1_arr m c 2

/-! ## The proof data family and the thread state -/

abbrev adm : (p : Fin 2) → (pcfgs (F := F) p).Adm := fun p => (cfgs p).toPCfg_adm
/-- Each kernel's proof data at the contents it is entered from. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the core's generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The kernels as segments -/

set_option backward.isDefEq.respectTransparency.types false in
/-- The projection kernel, entered from the launch contents and left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation kernel, entered from `W1` and left at `W2`. Its invariant begins and ends as the plain one: the
    scratch it carries between points is at anything before the first point and is forgotten after the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hgive : (Pipeline.ΦA spec1 c : sProp 𝕄)
        ⊢ iprop((∃ r, prngReg c r) ∗ BI.emp ∗ Pipeline.scopedRest (Ix := Unit) (Name := ℕ) (U := UR sig nD τ) (Lvl := ℕ) spec1 c) := by
      unfold Pipeline.ΦA
      iintro ⟨Hr, Hp⟩
      isplitl [Hp]; · iexact Hp
      isplitr; · iempintro
      iexact Hr
    exact (hout1 (VB m) c).trans hgive
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    the final memory holds every buffer that outlives a kernel at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- THE RUN with the result named: the arguments as launched, the result array at what the aggregation kernel's
    write-backs leave. -/
theorem run_valued : θ_run defs (onTc (τ := τ) (main (F := F))) ⟨m, fun _ => 0, ρ⟩ (fun r => ∀ c : Dev nD,
      r.2.mem ((c.tc : Thread nD τ).loc main_v1) = (dat1 (VB m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

end Cert.KernelIdeal.Hand

end
-- ==== Proof.Spec.lean ====
/-
  The mathematics of the graph-convolution layer, as functions of whole arrays over the extended reals, and
  the one law the two arrangements of it differ by.

  features x : 16384 × 128,  adjacency a : 16384 × 16384,  weight w : 128 × 32.
  support x w  =  x · w                      (16384 × 32):  support[r, j] = Σ_l x[r, l] · w[l, j]
  aggregate a s = a · s                      (16384 × 32):  aggregate[i, j] = Σ_k a[i, k] · s[k, j]
  layer x a w  = max (aggregate a (support x w)) 0,  entry by entry.

  The tiled program forms each row sum Σ_k over k = 0 … 16383 as eight partial sums over consecutive stretches of
  2048, added in order onto a zero; `sum_stretches` says that this is the whole sum. Only associativity and
  commutativity of + on the extended reals are used, so nothing is asked of the entries (no finiteness).
-/
import Idealize.ShloMosaic.PureOps.Ideal
import Idealize.ShloMosaic.Lib.ValueIdx
import Mathlib.Algebra.BigOperators.Fin
import Mathlib.Algebra.BigOperators.Group.Finset.Defs
import Mathlib.Data.Fintype.BigOperators

noncomputable section

namespace Cert.Spec

open Idealize.ShloMosaic Idealize.ShloMosaic.ValueIdx

abbrev SFeat : Shape := ⟨2, ![16384, 128]⟩
abbrev SAdj : Shape := ⟨2, ![16384, 16384]⟩
abbrev SWt : Shape := ⟨2, ![128, 32]⟩
abbrev SOut : Shape := ⟨2, ![16384, 32]⟩

/-- One entry of the projected features: row `r` of the features against column `j` of the weight. -/
def supportAt (x : SFeat.Idx → EReal) (w : SWt.Idx → EReal) (r : Fin 16384) (j : Fin 32) : EReal :=
  ∑ l : Fin 128, x (ix2 r l) * w (ix2 l j)

/-- The projected features as an array. -/
def support (x : SFeat.Idx → EReal) (w : SWt.Idx → EReal) : SOut.Idx → EReal :=
  fun q => supportAt x w (q 0) (q 1)

/-- One entry of the neighbour aggregation: row `i` of the adjacency against column `j` of `s`. -/
def aggAt (a : SAdj.Idx → EReal) (s : SOut.Idx → EReal) (i : Fin 16384) (j : Fin 32) : EReal :=
  ∑ k : Fin 16384, a (ix2 i k) * s (ix2 k j)

/-- The layer's result: the aggregation of the projected features, clamped below at zero. -/
def layer (x : SFeat.Idx → EReal) (a : SAdj.Idx → EReal) (w : SWt.Idx → EReal) : SOut.Idx → EReal :=
  fun q => max (aggAt a (support x w) (q 0) (q 1)) 0

/-- The `kb`-th stretch of 2048 consecutive positions of a row of length 16384. -/
def stretchIdx (kb : Fin 8) (kk : Fin 2048) : Fin 16384 := ⟨kb.val * 2048 + kk.val, by have := kb.isLt; have := kk.isLt; omega⟩

/-- The partial sums over the first `n` stretches, added in order onto zero. -/
def partialSum (f : Fin 16384 → EReal) : (n : ℕ) → n ≤ 8 → EReal
  | 0, _ => 0
  | n + 1, h => partialSum f n (Nat.le_of_succ_le h) + ∑ kk : Fin 2048, f (stretchIdx ⟨n, h⟩ kk)

/-- The stretches tile the row: position `kb * 2048 + kk` runs through `0 … 16383` exactly once as `kb` runs
through the eight stretches and `kk` through the 2048 places of one; the way back is quotient and remainder by 2048. -/
private def stretchEquiv : Fin 8 × Fin 2048 ≃ Fin 16384 where
  toFun p := stretchIdx p.1 p.2
  invFun k := (⟨k.val / 2048, by have := k.isLt; omega⟩, ⟨k.val % 2048, by omega⟩)
  left_inv := by
    rintro ⟨⟨a, ha⟩, ⟨b, hb⟩⟩
    refine Prod.ext (Fin.ext ?_) (Fin.ext ?_)
    · show (a * 2048 + b) / 2048 = a
      omega
    · show (a * 2048 + b) % 2048 = b
      omega
  right_inv := by
    rintro ⟨k, hk⟩
    refine Fin.ext ?_
    show k / 2048 * 2048 + k % 2048 = k
    omega

/-- The partial sums over the first `n` stretches are the sum over those stretches: by induction on `n`, the last
stretch being split off the sum over `Fin (n + 1)`. -/
private theorem partialSum_eq (f : Fin 16384 → EReal) : ∀ (n : ℕ) (h : n ≤ 8),
    partialSum f n h
      = ∑ kb : Fin n, ∑ kk : Fin 2048, f (stretchIdx ⟨kb.val, lt_of_lt_of_le kb.isLt h⟩ kk)
  | 0, _ => by simp [partialSum]
  | n + 1, h => by
      rw [partialSum, partialSum_eq f n (Nat.le_of_succ_le h)]
      exact (Fin.sum_univ_castSucc (fun kb : Fin (n + 1) =>
        ∑ kk : Fin 2048, f (stretchIdx ⟨kb.val, lt_of_lt_of_le kb.isLt h⟩ kk))).symm

/-- Eight stretches of 2048, summed stretch by stretch in order, are the whole sum over 16384. -/
theorem sum_stretches (f : Fin 16384 → EReal) : partialSum f 8 (le_refl 8) = ∑ k : Fin 16384, f k := by
  rw [partialSum_eq f 8 (le_refl 8)]
  -- the double sum over (stretch, place) is one sum over the pairs, carried to the row by the tiling
  rw [← Fintype.sum_prod_type' (fun (kb : Fin 8) (kk : Fin 2048) => f (stretchIdx ⟨kb.val, kb.isLt⟩ kk))]
  exact Fintype.sum_equiv stretchEquiv _ _ (fun _ => rfl)

end Cert.Spec

end
-- ==== Proof.KI.Val0.lean ====
/-
  What the projection kernel leaves in the projected features' array, at the ideal values: after its eight
  write-backs, entry (r, j) is  Σ_l features[r, l] · weight[l, j]  of the two arrays as the kernel found them.
  Point t writes back rows 2048·t … 2048·t + 2047, and its block is the product of those rows of the features with the
  whole weight; the eight blocks tile the array.
-/
import proofs.«116537_j54331336295083_1_alg».proof.Proof.KI.Region0
import proofs.«116537_j54331336295083_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The block product at an index

The body's one store is the matrix product of the two loaded blocks onto a zero accumulator. The change of format
before the product is the identity at the ideal values, so entry (p, q) of the stored block is the plain sum
Σ_l x[p, l] · w[l, q] over the 128 contracted positions. -/

/-- Both rectangles the body loads and stores through start at the origin. -/
theorem origin_offsets : (![0, 0] : Fin 2 → ℕ) = fun _ => 0 := by funext a; fin_cases a <;> rfl

/-- The product's left operand is read at the output's row. -/
theorem projDot_lhs_0 (i : S2048x32.Idx) (q : dot_S2048x128_S128x32_S2048x32_1_0_0_1_n_n.contr.Idx) :
    (dot_S2048x128_S128x32_S2048x32_1_0_0_1_n_n.lhsIdx i q 0).val = (i 0).val := by
  unfold DotDims.lhsIdx
  rw [dif_neg (show ¬(0 : Fin S2048x128.rank) ∈ dot_S2048x128_S128x32_S2048x32_1_0_0_1_n_n.lhsBatch by decide), dif_pos (show (0 : Fin S2048x128.rank) ∈ dot_S2048x128_S128x32_S2048x32_1_0_0_1_n_n.lhsNonContracting by decide)]
  rfl
/-- The product's left operand is read at the contracted position. -/
theorem projDot_lhs_1 (i : S2048x32.Idx) (q : dot_S2048x128_S128x32_S2048x32_1_0_0_1_n_n.contr.Idx) :
    (dot_S2048x128_S128x32_S2048x32_1_0_0_1_n_n.lhsIdx i q 1).val = (q ⟨0, by decide⟩).val :=
  dot_S2048x128_S128x32_S2048x32_1_0_0_1_n_n.lhsIdx_val_of_single rfl i q
/-- The product's right operand is read at the contracted position. -/
theorem projDot_rhs_0 (i : S2048x32.Idx) (q : dot_S2048x128_S128x32_S2048x32_1_0_0_1_n_n.contr.Idx) :
    (dot_S2048x128_S128x32_S2048x32_1_0_0_1_n_n.rhsIdx i q 0).val = (q ⟨0, by decide⟩).val :=
  dot_S2048x128_S128x32_S2048x32_1_0_0_1_n_n.rhsIdx_val_of_single rfl i q
/-- The product's right operand is read at the output's column. -/
theorem projDot_rhs_1 (i : S2048x32.Idx) (q : dot_S2048x128_S128x32_S2048x32_1_0_0_1_n_n.contr.Idx) :
    (dot_S2048x128_S128x32_S2048x32_1_0_0_1_n_n.rhsIdx i q 1).val = (i 1).val := by
  unfold DotDims.rhsIdx
  rw [dif_neg (show ¬(1 : Fin S128x32.rank) ∈ dot_S2048x128_S128x32_S2048x32_1_0_0_1_n_n.rhsBatch by decide), dif_pos (show (1 : Fin S128x32.rank) ∈ dot_S2048x128_S128x32_S2048x32_1_0_0_1_n_n.rhsNonContracting by decide)]
  rfl

/-- Entry (p, q) of the body's payload is the sum over the contracted position of the products of the operands. -/
theorem pay_apply (x : Vec Ideal S2048x128 .f32) (w : Vec Ideal S128x32 .f32) (p : Fin 2048) (q : Fin 32) :
    k0_pay1 (F := Ideal) x w (ix2 p q) = ∑ l : Fin 128, x (ix2 p l) * w (ix2 l q) := by
  unfold k0_pay1
  refine (Ideal.matmul_constant_zero_apply dot_S2048x128_S128x32_S2048x32_1_0_0_1_n_n none _ _ (ix2 p q)).trans ?_
  rw [← Equiv.sum_comp (ValueIdx.contrEquiv1 dot_S2048x128_S128x32_S2048x32_1_0_0_1_n_n 128 rfl rfl).symm]
  refine Finset.sum_congr rfl fun k _ => ?_
  have hk := ValueIdx.contrEquiv1_symm_val dot_S2048x128_S128x32_S2048x32_1_0_0_1_n_n 128 rfl rfl k
  have el : dot_S2048x128_S128x32_S2048x32_1_0_0_1_n_n.lhsIdx (ix2 p q) ((ValueIdx.contrEquiv1 dot_S2048x128_S128x32_S2048x32_1_0_0_1_n_n 128 rfl rfl).symm k) = ix2 p k := funext fun a => Fin.ext (by
    match a with
    | ⟨0, _⟩ => exact projDot_lhs_0 _ _
    | ⟨1, _⟩ => exact (projDot_lhs_1 _ _).trans hk)
  have er : dot_S2048x128_S128x32_S2048x32_1_0_0_1_n_n.rhsIdx (ix2 p q) ((ValueIdx.contrEquiv1 dot_S2048x128_S128x32_S2048x32_1_0_0_1_n_n 128 rfl rfl).symm k) = ix2 k q := funext fun a => Fin.ext (by
    match a with
    | ⟨0, _⟩ => exact (projDot_rhs_0 _ _).trans hk
    | ⟨1, _⟩ => exact projDot_rhs_1 _ _)
  rw [el, er]
  rfl

/-- Entry (p, q) of what the body leaves in the output block. -/
theorem projBlock_apply (x : Vec Ideal S2048x128 .f32) (w : Vec Ideal S128x32 .f32) (p : Fin 2048) (q : Fin 32) :
    projBlock (F := Ideal) x w (ix2 p q) = ∑ l : Fin 128, x (ix2 p l) * w (ix2 l q) := by
  unfold projBlock
  rw [View.canon_unit_zero origin_offsets, View.ld_unit_zero (S := S2048x128) origin_offsets,
    View.ld_unit_zero (S := S128x32) origin_offsets]
  exact pay_apply x w p q

/-- A block product whose left operand holds row `r` of an array `X` at its row `p`, and whose right operand holds
    column `j` of an array `W` at its column `q`, has at (p, q) the entry (r, j) of the product of the arrays. -/
theorem projBlock_of_reads (X : S16384x128.Idx → EReal) (W : S128x32.Idx → EReal)
    (xb : Vec Ideal S2048x128 .f32) (wb : Vec Ideal S128x32 .f32) (r : Fin 16384) (j : Fin 32) (p : Fin 2048) (q : Fin 32)
    (hx : ∀ l : Fin 128, xb (ix2 p l) = X (ix2 r l)) (hw : ∀ l : Fin 128, wb (ix2 l q) = W (ix2 l j)) :
    projBlock (F := Ideal) xb wb (ix2 p q) = Cert.Spec.supportAt X W r j := by
  rw [projBlock_apply]
  unfold Cert.Spec.supportAt
  exact Finset.sum_congr rfl fun l _ => by rw [hx l, hw l]

/-! ## Where each point's blocks lie

Point t is handed the t-th stretch of 2048 rows of the features and of the output, at all their columns, and the whole
weight: along the rows the block index is t for the features and the output and 0 for the weight; across, it is 0
for all three. -/

/-- The index maps at each of the eight points. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is its block of the product of the features and the weight as the kernel found them:
    its rows of the features are the rows the output block stands at, and the weight is there whole. -/
theorem proj_flushed (c : Dev nD) (t : Fin cfg0.N) :
    (dat0 (F := Ideal) V c).flushed 2 t
      = ((cfg0.win 2).blk t).view.read (Elt Ideal)
          (Cert.Spec.support (V c main_arg0 : S16384x128.Idx → EReal) (V c main_arg2 : S128x32.Idx → EReal)) := by
  show (cfg0.win 2).cut (grid0.coords t) ((dat0 V c).after 2 t) = _
  rw [after0_2]
  obtain ⟨f00, f01, f10, f11, f20, f21⟩ := block_positions t
  funext y
  obtain ⟨p, q, rfl⟩ : ∃ (p : Fin 2048) (q : Fin 32), y = ix2 p q := ⟨y 0, y 1, eq_ix2 y⟩
  show projBlock (iblk0 V c 0 t) (iblk0 V c 1 t) (ix2 p q)
    = Cert.Spec.supportAt (V c main_arg0 : S16384x128.Idx → EReal) (V c main_arg2 : S128x32.Idx → EReal)
        (((cfg0.win 2).blk t).view.emb (ix2 p q) 0) (((cfg0.win 2).blk t).view.emb (ix2 p q) 1)
  refine projBlock_of_reads _ _ _ _ _ _ p q (fun l => ?_) (fun l => ?_)
  · show (V c main_arg0 : S16384x128.Idx → EReal) (((cfg0.win 0).blk t).view.emb (ix2 p l)) = _
    refine congrArg _ (funext fun a => Fin.ext ?_)
    match a with
    | ⟨0, _⟩ =>
      show win0_0.index t (0 : Fin 2) * 2048 + 1 * p.val = win0_2.index t (0 : Fin 2) * 2048 + 1 * p.val
      omega
    | ⟨1, _⟩ =>
      show win0_0.index t (1 : Fin 2) * 128 + 1 * l.val = l.val
      omega
  · show (V c main_arg2 : S128x32.Idx → EReal) (((cfg0.win 1).blk t).view.emb (ix2 l q)) = _
    refine congrArg _ (funext fun a => Fin.ext ?_)
    match a with
    | ⟨0, _⟩ =>
      show win0_1.index t (0 : Fin 2) * 128 + 1 * l.val = l.val
      omega
    | ⟨1, _⟩ =>
      show win0_1.index t (1 : Fin 2) * 32 + 1 * q.val = win0_2.index t (1 : Fin 2) * 32 + 1 * q.val
      omega

/-! ## The eight blocks tile the array -/

/-- An index of the output array is in point `t`'s block iff each coordinate is in the block's range on its axis. -/
theorem mem_projBlk (t : Fin cfg0.N) (i : S16384x32.Idx) :
    i ∈ ((cfg0.win 2).blk t).view.set
      ↔ ∀ a : Fin 2, win0_2.index t a * S2048x32.size a ≤ (i a).val
          ∧ (i a).val < win0_2.index t a * S2048x32.size a + S2048x32.size a := by
  show i ∈ ((View.whole main_v0).slice (win0_2.rect t)).set ↔ _
  rw [View.set_slice_whole, Rect.mem_set_unit]
  exact Iff.rfl

/-- Row `r` of the output lies in the block of point `r / 2048`, and every point writes its block back. -/
theorem proj_cover (i : S16384x32.Idx) :
    ∃ t : Fin cfg0.N, (cfg0.win 2).flush t = true ∧ i ∈ ((cfg0.win 2).blk t).view.set := by
  have hi0 : (i 0).val < 16384 := (i 0).isLt
  have hi1 : (i 1).val < 32 := (i 1).isLt
  obtain ⟨t, ht⟩ : ∃ t : Fin cfg0.N, t.val = (i 0).val / 2048 :=
    ⟨⟨(i 0).val / 2048, by show (i 0).val / 2048 < 8; omega⟩, rfl⟩
  obtain ⟨f00, f01, f10, f11, f20, f21⟩ := block_positions t
  refine ⟨t, flush0_2 t, ?_⟩
  rw [mem_projBlk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 32 ≤ (i 1).val ∧ (i 1).val < win0_2.index t (1 : Fin 2) * 32 + 32
    omega

/-! ## The array after the kernel -/

/-- After its eight write-backs the projected features' array holds `Spec.support` of the features and the weight. -/
theorem proj_final (c : Dev nD) :
    ((dat0 (F := Ideal) V c).arrAt 2 cfg0.N : S16384x32.Idx → EReal)
      = Cert.Spec.support (V c main_arg0 : S16384x128.Idx → EReal) (V c main_arg2 : S128x32.Idx → EReal) :=
  (dat0 (F := Ideal) V c).arrAt_eq_of_cover 2 _ (fun t _ => proj_flushed V c t) proj_cover

end Cert.KernelIdeal.Hand

end
-- ==== Proof.KI.Val1.lean ====
/-
  What the aggregation kernel leaves in the result array, at the ideal values: after its sixteen write-backs, entry
  (i, j) is  max(Σ_k adjacency[i, k] · s[k, j], 0)  of the adjacency and the projected features s as the kernel found
  them. Along a row-block the accumulator after stretch k holds the partial sums over the stretches 0 … k
  (`Spec.partialSum`), so at k = 7 it holds the whole row sums (`Spec.sum_stretches`); that point writes back rows
  1024·i … 1024·i + 1023, and the sixteen blocks tile the array.
-/
import proofs.«116537_j54331336295083_1_alg».proof.Proof.KI.Region1
import proofs.«116537_j54331336295083_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace AggValue

/-! ## One update of the accumulator, entry by entry -/

/-- The block product's left operand is read at the result's row and the contraction's place. -/
theorem lhs_agg_0 (i : S1024x32.Idx) (q : dot_S1024x2048_S2048x32_S1024x32_1_0_0_1_n_n.contr.Idx) :
    (dot_S1024x2048_S2048x32_S1024x32_1_0_0_1_n_n.lhsIdx i q 0).val = (i 0).val := by
  unfold DotDims.lhsIdx
  rw [dif_neg (show ¬(0 : Fin S1024x2048.rank) ∈ dot_S1024x2048_S2048x32_S1024x32_1_0_0_1_n_n.lhsBatch by decide), dif_pos (show (0 : Fin S1024x2048.rank) ∈ dot_S1024x2048_S2048x32_S1024x32_1_0_0_1_n_n.lhsNonContracting by decide)]
  rfl
theorem lhs_agg_1 (i : S1024x32.Idx) (q : dot_S1024x2048_S2048x32_S1024x32_1_0_0_1_n_n.contr.Idx) :
    (dot_S1024x2048_S2048x32_S1024x32_1_0_0_1_n_n.lhsIdx i q 1).val = (q ⟨0, by decide⟩).val :=
  dot_S1024x2048_S2048x32_S1024x32_1_0_0_1_n_n.lhsIdx_val_of_single rfl i q
/-- The right operand is read at the contraction's place and the result's column. -/
theorem rhs_agg_0 (i : S1024x32.Idx) (q : dot_S1024x2048_S2048x32_S1024x32_1_0_0_1_n_n.contr.Idx) :
    (dot_S1024x2048_S2048x32_S1024x32_1_0_0_1_n_n.rhsIdx i q 0).val = (q ⟨0, by decide⟩).val :=
  dot_S1024x2048_S2048x32_S1024x32_1_0_0_1_n_n.rhsIdx_val_of_single rfl i q
theorem rhs_agg_1 (i : S1024x32.Idx) (q : dot_S1024x2048_S2048x32_S1024x32_1_0_0_1_n_n.contr.Idx) :
    (dot_S1024x2048_S2048x32_S1024x32_1_0_0_1_n_n.rhsIdx i q 1).val = (i 1).val := by
  unfold DotDims.rhsIdx
  rw [dif_neg (show ¬(1 : Fin S2048x32.rank) ∈ dot_S1024x2048_S2048x32_S1024x32_1_0_0_1_n_n.rhsBatch by decide), dif_pos (show (1 : Fin S2048x32.rank) ∈ dot_S1024x2048_S2048x32_S1024x32_1_0_0_1_n_n.rhsNonContracting by decide)]
  rfl

/-- The block product onto the zero splat, at entry (p, q): the row of the left block against the column of the right. -/
theorem blockProduct_apply (x : FVec Ideal S1024x2048 .bf16) (s : FVec Ideal S2048x32 .bf16) (p : Fin 1024) (q : Fin 32) :
    FloatOps.matmul dot_S1024x2048_S2048x32_S1024x32_1_0_0_1_n_n none x s (constant (F := Ideal) S1024x32 .f32 0x00000000#32) (ix2 p q)
      = ∑ kk : Fin 2048, x (ix2 p kk) * s (ix2 kk q) := by
  rw [Ideal.matmul_constant_zero_apply, ← Equiv.sum_comp (ValueIdx.contrEquiv1 dot_S1024x2048_S2048x32_S1024x32_1_0_0_1_n_n 2048 rfl rfl).symm]
  refine Finset.sum_congr rfl fun k _ => ?_
  have hk := ValueIdx.contrEquiv1_symm_val dot_S1024x2048_S2048x32_S1024x32_1_0_0_1_n_n 2048 rfl rfl k
  have el : dot_S1024x2048_S2048x32_S1024x32_1_0_0_1_n_n.lhsIdx (ix2 p q) ((ValueIdx.contrEquiv1 dot_S1024x2048_S2048x32_S1024x32_1_0_0_1_n_n 2048 rfl rfl).symm k) = ix2 p k := funext fun a => Fin.ext (by
    match a with
    | ⟨0, _⟩ => exact lhs_agg_0 _ _
    | ⟨1, _⟩ => exact (lhs_agg_1 _ _).trans hk)
  have er : dot_S1024x2048_S2048x32_S1024x32_1_0_0_1_n_n.rhsIdx (ix2 p q) ((ValueIdx.contrEquiv1 dot_S1024x2048_S2048x32_S1024x32_1_0_0_1_n_n 2048 rfl rfl).symm k) = ix2 k q := funext fun a => Fin.ext (by
    match a with
    | ⟨0, _⟩ => exact (rhs_agg_0 _ _).trans hk
    | ⟨1, _⟩ => exact rhs_agg_1 _ _)
  rw [el, er]

/-- One update: the accumulator's entry plus the row of the adjacency block against the column of the features block.
    (The change of format before the product is the identity on the extended reals, and so are the two reshapes.) -/
theorem update_apply (x : Vec Ideal S1024x2048 .f32) (s : Vec Ideal S2048x32 .f32) (acc : Vec Ideal S1024x32 .f32)
    (p : Fin 1024) (q : Fin 32) :
    (k1_pay2 x s acc (ix2 p q) : EReal) = acc (ix2 p q) + ∑ kk : Fin 2048, x (ix2 p kk) * s (ix2 kk q) := by
  unfold k1_pay2
  simp only [shapeCast_self]
  exact congrArg (acc (ix2 p q) + ·)
    (blockProduct_apply (truncf (F := Ideal) .bf16 x bitsLt_bf16_f32) (truncf (F := Ideal) .bf16 s bitsLt_bf16_f32) p q)

/-- The accumulator's reset value is zero everywhere. -/
theorem reset_apply (p : Fin 1024) (q : Fin 32) : (k1_pay1 (F := Ideal) (ix2 p q) : EReal) = 0 := by
  unfold k1_pay1
  show shapeCast S1024x32 (broadcast S1024x32 (Scalar.ofBits (F := Ideal) .f32 0x00000000#32)) shapeCasts_S1024x32_S1024x32 (ix2 p q) = _
  rw [shapeCast_self, broadcast_apply]
  exact Ideal.ofBits_zero_f32

/-- The write-back's value: the accumulator clamped below at zero. -/
theorem clamp_apply (v : Vec Ideal S1024x32 .f32) (p : Fin 1024) (q : Fin 32) :
    (k1_pay3 v (ix2 p q) : EReal) = max (v (ix2 p q)) 0 := by
  unfold k1_pay3
  show maximumf v (broadcast S1024x32 (Scalar.ofBits (F := Ideal) .f32 0x00000000#32)) (ix2 p q) = _
  rw [maximumf_apply, broadcast_apply]
  exact congrArg (max (v (ix2 p q))) Ideal.ofBits_zero_f32

/-! ## Where the blocks sit in their arrays -/

/-- The three index maps over the grid: at point t = 8·i + k the adjacency block is (i, k), the features block is
    (k, 0) and the result block is (i, 0). -/
theorem blockIndex_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- Entry (p, kk) of the adjacency block at point t is entry (1024·(t / 8) + p, stretch t % 8 at kk) of the adjacency. -/
theorem adjBlock_apply (c : Dev nD) (t : Fin cfg1.N) (p : Fin 1024) (kk : Fin 2048) (r k : Fin 16384)
    (hr : r.val = 1024 * (t.val / 8) + p.val) (hk : k.val = t.val % 8 * 2048 + kk.val) :
    ((iblk1 (F := Ideal) V c 0 t : S1024x2048.Idx → EReal) (ix2 p kk))
      = (V c main_arg1 : S16384x16384.Idx → EReal) (ix2 r k) := by
  obtain ⟨e0, e1, -⟩ := blockIndex_facts t
  show (V c main_arg1 : S16384x16384.Idx → EReal) (((cfg1.win 0).blk t).view.emb (ix2 p kk)) = _
  refine congrArg _ (funext fun a => Fin.ext ?_)
  match a with
  | ⟨0, _⟩ => show win1_0.index t (0 : Fin 2) * 1024 + 1 * p.val = r.val; omega
  | ⟨1, _⟩ => show win1_0.index t (1 : Fin 2) * 2048 + 1 * kk.val = k.val; omega

/-- Entry (kk, q) of the features block at point t is entry (stretch t % 8 at kk, q) of the projected features. -/
theorem featBlock_apply (c : Dev nD) (t : Fin cfg1.N) (kk : Fin 2048) (q : Fin 32) (k : Fin 16384)
    (hk : k.val = t.val % 8 * 2048 + kk.val) :
    ((iblk1 (F := Ideal) V c 1 t : S2048x32.Idx → EReal) (ix2 kk q))
      = (V c main_v0 : S16384x32.Idx → EReal) (ix2 k q) := by
  obtain ⟨-, -, e2, e3, -⟩ := blockIndex_facts t
  show (V c main_v0 : S16384x32.Idx → EReal) (((cfg1.win 1).blk t).view.emb (ix2 kk q)) = _
  refine congrArg _ (funext fun a => Fin.ext ?_)
  match a with
  | ⟨0, _⟩ => show win1_1.index t (0 : Fin 2) * 2048 + 1 * kk.val = k.val; omega
  | ⟨1, _⟩ => show win1_1.index t (1 : Fin 2) * 32 + 1 * q.val = q.val; omega

/-! ## The accumulator along a row-block -/

/-- The terms of row r of an adjacency against column q of projected features. -/
abbrev termsOf (a : S16384x16384.Idx → EReal) (s : S16384x32.Idx → EReal) (r : Fin 16384) (q : Fin 32) : Fin 16384 → EReal :=
  fun k => a (ix2 r k) * s (ix2 k q)

/-- The terms of row r of the adjacency against column q of the projected features, as the kernel found them. -/
abbrev rowTerms (c : Dev nD) (r : Fin 16384) (q : Fin 32) : Fin 16384 → EReal :=
  termsOf (V c main_arg1) (V c main_v0) r q

/-- One update at point t adds the terms of stretch t % 8. -/
theorem pointUpdate_apply (c : Dev nD) (t : Fin cfg1.N) (kb : Fin 8) (hkb : kb.val = t.val % 8) (p : Fin 1024) (q : Fin 32)
    (r : Fin 16384) (hr : r.val = 1024 * (t.val / 8) + p.val) (acc : Vec Ideal S1024x32 .f32) :
    (k1_pay2 (iblk1 (F := Ideal) V c 0 t) (iblk1 (F := Ideal) V c 1 t) acc (ix2 p q) : EReal)
      = acc (ix2 p q) + ∑ kk : Fin 2048, rowTerms V c r q (Cert.Spec.stretchIdx kb kk) := by
  refine (update_apply _ _ acc p q).trans (congrArg (acc (ix2 p q) + ·) (Finset.sum_congr rfl fun kk _ => ?_))
  have hk : (Cert.Spec.stretchIdx kb kk).val = t.val % 8 * 2048 + kk.val := by
    show kb.val * 2048 + kk.val = _
    rw [hkb]
  rw [adjBlock_apply V c t p kk r _ hr hk, featBlock_apply V c t kk q _ hk]

/-- The accumulator does not depend on how its point is written. -/
theorem accAt1_congr (c : Dev nD) {n n' : ℕ} (e : n = n') (hn : n < cfg1.N) (hn' : n' < cfg1.N) :
    accAt1 (F := Ideal) V c n hn = accAt1 (F := Ideal) V c n' hn' := by
  subst e; rfl

/-- Along row-block i, after stretch k the accumulator holds the partial sums over the stretches 0 … k. -/
theorem acc_partial (c : Dev nD) (i : ℕ) (p : Fin 1024) (q : Fin 32) (r : Fin 16384) (hr : r.val = 1024 * i + p.val) :
    ∀ (k : ℕ) (hk : k + 1 ≤ 8) (hn : 8 * i + k < cfg1.N),
      ((accAt1 (F := Ideal) V c (8 * i + k) hn : S1024x32.Idx → EReal) (ix2 p q))
        = Cert.Spec.partialSum (rowTerms V c r q) (k + 1) hk
  | 0, hk, hn => by
    have h0 : (⟨8 * i + 0, hn⟩ : Fin cfg1.N).val % 8 = 0 := by show (8 * i + 0) % 8 = 0; omega
    refine (congrFun (accAt1_first V c ⟨8 * i + 0, hn⟩ h0) (ix2 p q)).trans ?_
    refine (pointUpdate_apply V c ⟨8 * i + 0, hn⟩ ⟨0, hk⟩ (by show 0 = (8 * i + 0) % 8; omega) p q r
      (by show r.val = 1024 * ((8 * i + 0) / 8) + p.val; omega) _).trans ?_
    show _ = (0 : EReal) + ∑ kk : Fin 2048, rowTerms V c r q (Cert.Spec.stretchIdx ⟨0, hk⟩ kk)
    rw [reset_apply]
  | k + 1, hk, hn => by
    have h0 : ¬(⟨8 * i + (k + 1), hn⟩ : Fin cfg1.N).val % 8 = 0 := by show ¬(8 * i + (k + 1)) % 8 = 0; omega
    have hn' : 8 * i + k < cfg1.N := by omega
    refine (congrFun (accAt1_next V c ⟨8 * i + (k + 1), hn⟩ h0) (ix2 p q)).trans ?_
    refine (pointUpdate_apply V c ⟨8 * i + (k + 1), hn⟩ ⟨k + 1, hk⟩ (by show k + 1 = (8 * i + (k + 1)) % 8; omega) p q r
      (by show r.val = 1024 * ((8 * i + (k + 1)) / 8) + p.val; omega) _).trans ?_
    show _ = Cert.Spec.partialSum (rowTerms V c r q) (k + 1) (Nat.le_of_succ_le hk)
        + ∑ kk : Fin 2048, rowTerms V c r q (Cert.Spec.stretchIdx ⟨k + 1, hk⟩ kk)
    rw [accAt1_congr V c (show 8 * i + (k + 1) - 1 = 8 * i + k by omega) _ hn', acc_partial c i p q r hr k (Nat.le_of_succ_le hk) hn']

/-- At the last stretch of a row-block the accumulator holds the whole row sums. -/
theorem acc_last (c : Dev nD) (t : Fin cfg1.N) (h7 : t.val % 8 = 7) (p : Fin 1024) (q : Fin 32) (r : Fin 16384)
    (hr : r.val = 1024 * (t.val / 8) + p.val) :
    ((accAt1 (F := Ideal) V c t.val t.isLt : S1024x32.Idx → EReal) (ix2 p q))
      = Cert.Spec.aggAt (V c main_arg1 : S16384x16384.Idx → EReal) (V c main_v0 : S16384x32.Idx → EReal) r q := by
  have hn : 8 * (t.val / 8) + 7 < cfg1.N := by have := t.isLt; omega
  rw [accAt1_congr V c (show t.val = 8 * (t.val / 8) + 7 by omega) t.isLt hn,
    acc_partial V c (t.val / 8) p q r hr 7 (le_refl 8) hn]
  exact Cert.Spec.sum_stretches (rowTerms V c r q)

/-! ## From the blocks to the array -/

/-- The clamped aggregation of what the kernel found, as one array. -/
abbrev aggClamped (c : Dev nD) : S16384x32.Idx → EReal :=
  fun q => max (Cert.Spec.aggAt (V c main_arg1 : S16384x16384.Idx → EReal) (V c main_v0 : S16384x32.Idx → EReal) (q 0) (q 1)) 0

/-- What a last-stretch point writes back is its block of the clamped aggregation. -/
theorem flushed_eq (c : Dev nD) (t : Fin cfg1.N) (h7 : t.val % 8 = 7) :
    (dat1 (F := Ideal) V c).flushed 2 t = ((cfg1.win 2).blk t).view.read (Elt Ideal) (aggClamped V c) := by
  show (cfg1.win 2).cut (grid1.coords t) ((dat1 (F := Ideal) V c).after 2 t) = _
  rw [after1_2]
  obtain ⟨-, -, -, -, e4, e5⟩ := blockIndex_facts t
  funext j
  obtain ⟨p, q, rfl⟩ : ∃ (p : Fin 1024) (q : Fin 32), j = ix2 p q := ⟨j 0, j 1, eq_ix2 j⟩
  show (k1_pay3 (accAt1 (F := Ideal) V c t.val t.isLt) (ix2 p q) : EReal) = aggClamped V c (((cfg1.win 2).blk t).view.emb (ix2 p q))
  rw [clamp_apply]
  have hq : (((cfg1.win 2).blk t).view.emb (ix2 p q) : S16384x32.Idx) 1 = q := Fin.ext (by
    show win1_2.index t (1 : Fin 2) * 32 + 1 * q.val = q.val; omega)
  show max _ 0 = max (Cert.Spec.aggAt _ _ ((((cfg1.win 2).blk t).view.emb (ix2 p q) : S16384x32.Idx) 0) ((((cfg1.win 2).blk t).view.emb (ix2 p q) : S16384x32.Idx) 1)) 0
  rw [hq]
  refine congrArg (max · 0) (acc_last V c t h7 p q _ ?_)
  show win1_2.index t (0 : Fin 2) * 1024 + 1 * p.val = _; omega

/-- An entry of the result is in point t's block iff each coordinate is in the block's range on its axis. -/
theorem mem_outBlock (t : Fin cfg1.N) (i : S16384x32.Idx) :
    i ∈ ((cfg1.win 2).blk t).view.set ↔ ∀ a : Fin 2, win1_2.index t a * S1024x32.size a ≤ (i a).val ∧ (i a).val < win1_2.index t a * S1024x32.size a + S1024x32.size a := by
  show i ∈ ((View.whole main_v1).slice (win1_2.rect t)).set ↔ _
  rw [View.set_slice_whole, Rect.mem_set_unit]
  exact Iff.rfl

/-- Row r of the result lies in the block written back at the last stretch of row-block r / 1024. -/
theorem covered (i : S16384x32.Idx) :
    ∃ t : Fin cfg1.N, (cfg1.win 2).flush t = true ∧ i ∈ ((cfg1.win 2).blk t).view.set := by
  have hi0 : (i 0).val < 16384 := idx2_lt0 i
  have hi1 : (i 1).val < 32 := idx2_lt1 i
  have hN : 8 * ((i 0).val / 1024) + 7 < cfg1.N := lt_of_lt_of_eq (by omega : 8 * ((i 0).val / 1024) + 7 < 128) N_1.symm
  refine ⟨⟨8 * ((i 0).val / 1024) + 7, hN⟩, (flush1_2 _).mpr (by show (8 * ((i 0).val / 1024) + 7) % 8 = 7; omega), ?_⟩
  obtain ⟨-, -, -, -, e4, e5⟩ := blockIndex_facts ⟨8 * ((i 0).val / 1024) + 7, hN⟩
  have e4' : win1_2.index ⟨8 * ((i 0).val / 1024) + 7, hN⟩ (0 : Fin 2) = (8 * ((i 0).val / 1024) + 7) / 8 := e4
  rw [mem_outBlock]
  intro a
  match a with
  | ⟨0, _⟩ => show win1_2.index ⟨8 * ((i 0).val / 1024) + 7, hN⟩ (0 : Fin 2) * 1024 ≤ (i 0).val ∧ (i 0).val < win1_2.index ⟨8 * ((i 0).val / 1024) + 7, hN⟩ (0 : Fin 2) * 1024 + 1024; omega
  | ⟨1, _⟩ => show win1_2.index ⟨8 * ((i 0).val / 1024) + 7, hN⟩ (1 : Fin 2) * 32 ≤ (i 1).val ∧ (i 1).val < win1_2.index ⟨8 * ((i 0).val / 1024) + 7, hN⟩ (1 : Fin 2) * 32 + 32; omega

end AggValue

open AggValue in
/-- After its sixteen write-backs the result array holds the clamped aggregation of what the kernel found. -/
theorem agg_final (c : Dev nD) :
    ((dat1 (F := Ideal) V c).arrAt 2 cfg1.N : S16384x32.Idx → EReal)
      = fun q => max (Cert.Spec.aggAt (V c main_arg1 : S16384x16384.Idx → EReal) (V c main_v0 : S16384x32.Idx → EReal) (q 0) (q 1)) 0 :=
  (dat1 (F := Ideal) V c).arrAt_eq_of_cover 2 (aggClamped V c)
    (fun t hf => flushed_eq V c t ((flush1_2 t).mp hf)) covered

end Cert.KernelIdeal.Hand

end
-- ==== Proof.RefValue.lean ====
/-
  The reference program's result, at the ideal values, is `Cert.Spec.layer` of its three argument arrays.
-/
import proofs.«116537_j54331336295083_1_alg».proof.Proof.Gen.ReferenceIdeal.Run
import proofs.«116537_j54331336295083_1_alg».proof.Proof.Gen.ReferenceIdeal.Read
import proofs.«116537_j54331336295083_1_alg».proof.Proof.Spec
import Idealize.ShloMosaic.PureOps.Ideal.Laws

noncomputable section

namespace Cert.ReferenceIdeal.RefValue

open Idealize.ShloMosaic Idealize.ShloMosaic.ValueIdx

/-! ## The operand positions of the two products, by coordinates

Each product reads its left operand along a row and its right operand down a column. The program's
index functions say this by a case split on the axis; `ix2` says the same, so the two agree axis by axis. -/

/-- The projection reads the features at row `i 0`, position `l`. -/
theorem lidx_v0_eq (i : S16384x32.Idx) (l : Fin 128) :
    Read.lidx_main_v0 i l = ix2 (n0 := 16384) (n1 := 128) (i 0) l :=
  funext fun a => Fin.ext (by match a with | ⟨0, _⟩ => rfl | ⟨1, _⟩ => rfl)

/-- The projection reads the weight at position `l`, column `i 1`. -/
theorem ridx_v0_eq (i : S16384x32.Idx) (l : Fin 128) :
    Read.ridx_main_v0 i l = ix2 (n0 := 128) (n1 := 32) l (i 1) :=
  funext fun a => Fin.ext (by match a with | ⟨0, _⟩ => rfl | ⟨1, _⟩ => rfl)

/-- The aggregation reads the adjacency at row `i 0`, position `k`. -/
theorem lidx_v1_eq (i : S16384x32.Idx) (k : Fin 16384) :
    Read.lidx_main_v1 i k = ix2 (n0 := 16384) (n1 := 16384) (i 0) k :=
  funext fun a => Fin.ext (by match a with | ⟨0, _⟩ => rfl | ⟨1, _⟩ => rfl)

/-- The aggregation reads the projected features at position `k`, column `i 1`. -/
theorem ridx_v1_eq (i : S16384x32.Idx) (k : Fin 16384) :
    Read.ridx_main_v1 i k = ix2 (n0 := 16384) (n1 := 32) k (i 1) :=
  funext fun a => Fin.ext (by match a with | ⟨0, _⟩ => rfl | ⟨1, _⟩ => rfl)

/-! ## The two products and the clamp -/

/-- The first product is the projected features: entry `q` is row `q 0` of the features against column `q 1` of the weight. -/
theorem v0_is_support (x0 : (⟨S16384x128, .f32⟩ : BufTy).Contents (Elt Ideal))
    (x2 : (⟨S128x32, .f32⟩ : BufTy).Contents (Elt Ideal)) (q : S16384x32.Idx) :
    Read.val_main_v0 (F := Ideal) x0 x2 q = Cert.Spec.support x0 x2 q := by
  rw [Read.val_main_v0_apply]
  unfold Cert.Spec.support Cert.Spec.supportAt
  refine Finset.sum_congr rfl fun l _ => ?_
  rw [lidx_v0_eq, ridx_v0_eq]

/-- The second product is the aggregation of the projected features along the adjacency's rows. -/
theorem v1_is_agg (x0 : (⟨S16384x128, .f32⟩ : BufTy).Contents (Elt Ideal))
    (x1 : (⟨S16384x16384, .f32⟩ : BufTy).Contents (Elt Ideal))
    (x2 : (⟨S128x32, .f32⟩ : BufTy).Contents (Elt Ideal)) (i : S16384x32.Idx) :
    Read.val_main_v1 (F := Ideal) x0 x1 x2 i = Cert.Spec.aggAt x1 (Cert.Spec.support x0 x2) (i 0) (i 1) := by
  rw [Read.val_main_v1_apply]
  unfold Cert.Spec.aggAt
  refine Finset.sum_congr rfl fun k _ => ?_
  rw [v0_is_support, lidx_v1_eq, ridx_v1_eq]

/-- The constant the clamp compares against is the extended real zero at every position. -/
theorem zero_splat (i : S16384x32.Idx) : Read.val_main_call0_v0 (F := Ideal) i = (0 : EReal) := by
  rw [Read.val_main_call0_v0_apply, Read.val_main_call0_cst_apply, Ideal.ofBits_def, Ideal.ofBits_zero_f32]

/-- The reference's result is the layer: the aggregation of the projected features, clamped below at zero. -/
theorem ref_is_layer (x0 : (⟨Cert.ReferenceIdeal.S16384x128, .f32⟩ : BufTy).Contents (Elt Ideal))
    (x1 : (⟨Cert.ReferenceIdeal.S16384x16384, .f32⟩ : BufTy).Contents (Elt Ideal))
    (x2 : (⟨Cert.ReferenceIdeal.S128x32, .f32⟩ : BufTy).Contents (Elt Ideal)) :
    Cert.ReferenceIdeal.Read.val_main_v2 (F := Ideal) x0 x1 x2 = Cert.Spec.layer x0 x1 x2 := by
  funext i
  rw [Read.val_main_v2_apply, Ideal.maximumf_def, v1_is_agg, zero_splat]
  rfl

end Cert.ReferenceIdeal.RefValue

end
-- ==== Proof.lean ====
/-
  The graph-convolution layer  max(adjacency · (features · weight), 0)  as two tiled kernels, against the plain
  reference that forms the two matrix products whole.

  Frames. The tiled program runs its projection kernel (8 grid points) and then its aggregation kernel (16 × 8 grid
  points, a 1024 × 32 accumulator carried along each row of 8); every weakly fair execution ends, nothing faults, and no
  argument array is written (`Hand.frame_all`, at the word level and at the ideal values alike). The reference is three
  host operations and a clamp; its frame is its run with the result dropped.

  Values, at the ideal values (floats are extended reals, a change of format is the identity). The projection kernel leaves
  support[r, j] = Σ_l features[r, l] · weight[l, j]  (`proj_final`). Along a row-block the aggregation kernel's accumulator
  collects Σ_k adjacency[i, k] · support[k, j] stretch by stretch, eight stretches of 2048 added in order onto zero, which
  is the whole sum over 16384 (`Spec.sum_stretches`: only associativity and commutativity of +, so the precondition is
  never opened); at the eighth stretch the clamp of it is written back (`agg_final`). The reference's two whole products
  and its clamp are the same function of the three arguments (`ref_is_layer`). So both programs end with
  `Spec.layer features adjacency weight`, entry by entry.

  The idealized kernel is the printed kernel read at the ideal values: the ideal pass rewrote nothing, so there is nothing
  to preserve beyond that.
-/
import proofs.«116537_j54331336295083_1_alg».proof.Defs
import proofs.«116537_j54331336295083_1_alg».proof.Proof.Gen.Kernel
import proofs.«116537_j54331336295083_1_alg».proof.Proof.Gen.KernelIdeal
import proofs.«116537_j54331336295083_1_alg».proof.Proof.Gen.ReferenceIdeal
import proofs.«116537_j54331336295083_1_alg».proof.Proof.Gen.Pre_finite_inputs
import proofs.«116537_j54331336295083_1_alg».proof.Proof.K.Run
import proofs.«116537_j54331336295083_1_alg».proof.Proof.KI.Run
import proofs.«116537_j54331336295083_1_alg».proof.Proof.KI.Val0
import proofs.«116537_j54331336295083_1_alg».proof.Proof.KI.Val1
import proofs.«116537_j54331336295083_1_alg».proof.Proof.RefValue
import Idealize.ShloMosaic.Adequacy
import Idealize.ShloMosaic.Init

noncomputable section

namespace Cert.Proof

open Idealize.ShloMosaic Idealize.ShloMosaic.TcCoe Idealize.SL.Sem

/-- What the tiled program's result array holds at the end, at the ideal values: the layer of the launch contents of
    the three arguments. -/
theorem kernel_final (m : (ℓ : Loc Cert.KernelIdeal.nD Cert.KernelIdeal.τ Cert.KernelIdeal.sig) → Buf (Elt Ideal) ℓ) (c : Dev Cert.KernelIdeal.nD) :
    ((Cert.KernelIdeal.Hand.dat1 (F := Ideal) (Cert.KernelIdeal.Hand.VB m) c).arrAt 2 Cert.KernelIdeal.cfg1.N : Cert.KernelIdeal.S16384x32.Idx → EReal)
      = Cert.Spec.layer (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  rw [Cert.KernelIdeal.Hand.agg_final (Cert.KernelIdeal.Hand.VB m) c, Cert.KernelIdeal.Hand.VB_main_arg1 m c,
    Cert.KernelIdeal.Hand.VB_main_v0 m c, Cert.KernelIdeal.Hand.proj_final (Cert.KernelIdeal.Hand.VA m) c]
  rfl

theorem frame_k : Cert.frame_Kernel := fun m ρ _ => Cert.Kernel.Hand.frame_all (F := Bits) m ρ

theorem frame_ki : Cert.frame_KernelIdeal := fun m ρ _ => Cert.KernelIdeal.Hand.frame_all (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, run from memories that agree on the arguments, end with the layer of those arguments. -/
theorem algebraic : Cert.algebraic_KernelIdeal_ReferenceIdeal := by
  intro m ρ m' ρ' _ hagree
  refine ⟨fun c => Cert.Spec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (kernel_final m c), (h c).2⟩)
      (Cert.KernelIdeal.Hand.run_valued (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v2_eq (F := Ideal) _ _ _).trans (Cert.ReferenceIdeal.RefValue.ref_is_layer _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
